-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8192 : Shape := ⟨2, ![4096, 8192]⟩
abbrev S8192 : Shape := ⟨1, ![8192]⟩
abbrev S8192x4096 : Shape := ⟨2, ![8192, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S8192 .f32) (main_arg5 : FVec F S8192x4096 .f32) (main_arg6 : FVec F S4096 .f32) (main_arg7 : FVec F S4096 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4x2048x4096 .f32) (main_arg1 : FVec F S4096x8192 .f32) (main_arg2 : FVec F S8192 .f32) (main_arg3 : FVec F S4096x8192 .f32) (main_arg4 : FVec F S8192 .f32) (main_arg5 : FVec F S8192x4096 .f32) (main_arg6 : FVec F S4096 .f32) (main_arg7 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_v13 main_v16
-- ==== Kernel.lean ====
abbrev S4x2048x4096 : Shape := ⟨3, ![4, 2048, 4096]⟩
abbrev S4096x8192 : Shape := ⟨2, ![4096, 8192]⟩
abbrev S8192 : Shape := ⟨1, ![8192]⟩
abbrev S8192x4096 : Shape := ⟨2, ![8192, 4096]⟩
abbrev S4096 : Shape := ⟨1, ![4096]⟩
abbrev S1x8192 : Shape := ⟨2, ![1, 8192]⟩
abbrev S1x4096 : Shape := ⟨2, ![1, 4096]⟩
abbrev S8192x8192 : Shape := ⟨2, ![8192, 8192]⟩
abbrev S512x4096 : Shape := ⟨2, ![512, 4096]⟩
abbrev S4096x512 : Shape := ⟨2, ![4096, 512]⟩
abbrev S1x512 : Shape := ⟨2, ![1, 512]⟩
abbrev S512x512 : Shape := ⟨2, ![512, 512]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S1024x8x128 : Shape := ⟨3, ![1024, 8, 128]⟩
abbrev S1024x8 : Shape := ⟨2, ![1024, 8]⟩
abbrev S1024x8x1 : Shape := ⟨3, ![1024, 8, 1]⟩

abbrev nBuf : Space → Nat
  | .hbm => 20
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S8192, .f32⟩
  | .hbm, ⟨3, _⟩ => ⟨S4096x8192, .f32⟩
  | .hbm, ⟨4, _⟩ => ⟨S8192, .f32⟩
  | .hbm, ⟨5, _⟩ => ⟨S8192x4096, .f32⟩
  | .hbm, ⟨6, _⟩ => ⟨S4096, .f32⟩
  | .hbm, ⟨7, _⟩ => ⟨S4096, .f32⟩
  | .hbm, ⟨8, _⟩ => ⟨S8192x4096, .f32⟩
  | .hbm, ⟨9, _⟩ => ⟨S8192x4096, .bf16⟩
  | .hbm, ⟨10, _⟩ => ⟨S4096x8192, .bf16⟩
  | .hbm, ⟨11, _⟩ => ⟨S4096x8192, .bf16⟩
  | .hbm, ⟨12, _⟩ => ⟨S8192x4096, .bf16⟩
  | .hbm, ⟨13, _⟩ => ⟨S1x8192, .f32⟩
  | .hbm, ⟨14, _⟩ => ⟨S1x8192, .f32⟩
  | .hbm, ⟨15, _⟩ => ⟨S1x4096, .f32⟩
  | .hbm, ⟨16, _⟩ => ⟨S1x4096, .f32⟩
  | .hbm, ⟨17, _⟩ => ⟨S8192x8192, .bf16⟩
  | .hbm, ⟨18, _⟩ => ⟨S8192x4096, .f32⟩
  | .hbm, ⟨19, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S4096x512, .bf16⟩
  | .local _ .vmem, ⟨7, _⟩ => ⟨S4096x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 4, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S8192_S1x8192 : S8192.ShapeCasts S1x8192
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x8x128 : S1024x1024.ShapeCasts S1024x8x128
  reduces_S1024x8x128_S1024x8 : S1024x8x128.Reduces [2] S1024x8
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  shapeCasts_S8192x4096_S4x2048x4096 : S8192x4096.ShapeCasts S4x2048x4096
  dot_S512x4096_S4096x512_S512x512_1_0_0_1_n_n_wf : DotDims.WF S512x4096 S4096x512 S512x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x8192.size a
  hwx0_1 : ∀ i : grid0.Coords, EltTy.bits .bf16 = 32 ∨ (Rect.block (s := S4096x8192) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x8192.size a
  hwx0_3 : ∀ i : grid0.Coords, EltTy.bits .bf16 = 32 ∨ (Rect.block (s := S4096x8192) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x8192.size a
  hwx0_5 : ∀ i : grid0.Coords, EltTy.bits .bf16 = 32 ∨ (Rect.block (s := S8192x8192) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .bf16 = 32 ∨ (Rect.block (s := S8192x8192) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x4096.size a
  hwx1_1 : ∀ i : grid1.Coords, EltTy.bits .bf16 = 32 ∨ (Rect.block (s := S8192x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x8192 : Shape := ⟨2, ![4096, 8192]⟩
abbrev S8192 : Shape := ⟨1, ![8192]⟩
abbrev S8192x4096 : Shape := ⟨2, ![8192, 4096]⟩
abbrev S4096 : Shape := ⟨1, ![4096]⟩
abbrev S4x2048x8192 : Shape := ⟨3, ![4, 2048, 8192]⟩
abbrev S1x1x8192 : Shape := ⟨3, ![1, 1, 8192]⟩
abbrev S_ : Shape := ⟨0, ![]⟩
abbrev S1x1x4096 : Shape := ⟨3, ![1, 1, 4096]⟩
abbrev S4x2048x32x128 : Shape := ⟨4, ![4, 2048, 32, 128]⟩
abbrev S4x2048x32 : Shape := ⟨3, ![4, 2048, 32]⟩
abbrev S4x2048x32x1 : Shape := ⟨4, ![4, 2048, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S8192, .f32⟩
  | .hbm, ⟨3, _⟩ => ⟨S4096x8192, .f32⟩
  | .hbm, ⟨4, _⟩ => ⟨S8192, .f32⟩
  | .hbm, ⟨5, _⟩ => ⟨S8192x4096, .f32⟩
  | .hbm, ⟨6, _⟩ => ⟨S4096, .f32⟩
  | .hbm, ⟨7, _⟩ => ⟨S4096, .f32⟩
  | .hbm, ⟨8, _⟩ => ⟨S4x2048x8192, .f32⟩
  | .hbm, ⟨9, _⟩ => ⟨S1x1x8192, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S1x1x8192, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S4x2048x8192, .f32⟩
  | .hbm, ⟨18, _⟩ => ⟨S_, .f32⟩
  | .hbm, ⟨19, _⟩ => ⟨S4x2048x8192, .f32⟩
  | .hbm, ⟨20, _⟩ => ⟨S4x2048x8192, .f32⟩
  | .hbm, ⟨21, _⟩ => ⟨S_, .f32⟩
  | .hbm, ⟨22, _⟩ => ⟨S4x2048x8192, .f32⟩
  | .hbm, ⟨23, _⟩ => ⟨S4x2048x8192, .f32⟩
  | .hbm, ⟨24, _⟩ => ⟨S4x2048x8192, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | .hbm, ⟨29, _⟩ => ⟨S4x2048x32x128, .f32⟩
  | .hbm, ⟨30, _⟩ => ⟨S4x2048x32x128, .f32⟩
  | .hbm, ⟨31, _⟩ => ⟨S_, .f32⟩
  | .hbm, ⟨32, _⟩ => ⟨S4x2048x32, .f32⟩
  | .hbm, ⟨33, _⟩ => ⟨S4x2048x32x1, .f32⟩
  | .hbm, ⟨34, _⟩ => ⟨S_, .f32⟩
  | .hbm, ⟨35, _⟩ => ⟨S4x2048x32x1, .f32⟩
  | .hbm, ⟨36, _⟩ => ⟨S4x2048x32x1, .f32⟩
  | .hbm, ⟨37, _⟩ => ⟨S_, .f32⟩
  | .hbm, ⟨38, _⟩ => ⟨S4x2048x32x1, .f32⟩
  | .hbm, ⟨39, _⟩ => ⟨S4x2048x32x1, .f32⟩
  | .hbm, ⟨40, _⟩ => ⟨S4x2048x32x1, .f32⟩
  | .hbm, ⟨41, _⟩ => ⟨S4x2048x32x128, .f32⟩
  | .hbm, ⟨42, _⟩ => ⟨S4x2048x32x128, .f32⟩
  | .hbm, ⟨43, _⟩ => ⟨S4x2048x4096, .f32⟩
  | .hbm, ⟨44, _⟩ => ⟨S1x1x4096, .f32⟩
  | .hbm, ⟨45, _⟩ => ⟨S4x2048x4096, .f32⟩
  | .hbm, ⟨46, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S4x2048x32x128 : S4x2048x4096.ShapeCasts S4x2048x32x128
  reducesTo_S4x2048x32x128_S4x2048x32_d3 : S4x2048x32x128.ReducesTo [3] S4x2048x32
  h_S_ : 0 < S_.numel
  bcast_S4x2048x32_S4x2048x32x1_0_1_2 : S4x2048x32.BroadcastsInDim S4x2048x32x1 (![0, 1, 2] : Fin 3 → Fin S4x2048x32x1.rank)
  bcast_S_S4x2048x32x1 : S_.BroadcastsInDim S4x2048x32x1 (![] : Fin 0 → Fin S4x2048x32x1.rank)
  bcast_S4x2048x32x1_S4x2048x32x128_0_1_2_3 : S4x2048x32x1.BroadcastsInDim S4x2048x32x128 (![0, 1, 2, 3] : Fin 4 → Fin S4x2048x32x128.rank)
  shapeCasts_S4x2048x32x128_S4x2048x4096 : S4x2048x32x128.ShapeCasts S4x2048x4096
  dot_S4x2048x4096_S4096x8192_S4x2048x8192_2_0_01_1_n_n_wf : DotDims.WF S4x2048x4096 S4096x8192 S4x2048x8192 [2] [0] [0, 1] [1] [] []
  dot_S4x2048x8192_S8192x4096_S4x2048x4096_2_0_01_1_n_n_wf : DotDims.WF S4x2048x8192 S8192x4096 S4x2048x4096 [2] [0] [0, 1] [1] [] []

variable [Facts₀]

def dot_S4x2048x4096_S4096x8192_S4x2048x8192_2_0_01_1_n_n : DotDims S4x2048x4096 S4096x8192 S4x2048x8192 where
  lhsContracting := [2]
  rhsContracting := [0]
  lhsNonContracting := [0, 1]
  rhsNonContracting := [1]
  lhsBatch := []
  rhsBatch := []
  wf := dot_S4x2048x4096_S4096x8192_S4x2048x8192_2_0_01_1_n_n_wf
def dot_S4x2048x8192_S8192x4096_S4x2048x4096_2_0_01_1_n_n : DotDims S4x2048x8192 S8192x4096 S4x2048x4096 where
  lhsContracting := [2]
  rhsContracting := [0]
  lhsNonContracting := [0, 1]
  rhsNonContracting := [1]
  lhsBatch := []
  rhsBatch := []
  wf := dot_S4x2048x8192_S8192x4096_S4x2048x4096_2_0_01_1_n_n_wf

class Facts : Prop extends Facts₀ where

variable [Facts]
-- ==== Proof.KernelR0.lean ====
/-
  Region 0 (the gate/content layer): what the pipeline hands the body at a grid point and what the body leaves.
  At point (j, i) the body reads a block of 512 rows of the input, the j-th blocks of 512 columns of the two
  weight matrices and of the two biases, and stores one 512 x 512 block of the gated layer; nothing is carried
  from point to point.  The contents `V` of the buffers when the region is entered are a parameter.
-/
import proofs.«112403_j59167469470253_1_alg».proof.Proof.Gen.Kernel.Launch
import proofs.«112403_j59167469470253_1_alg».proof.Proof.Gen.Kernel.Skeleton
import proofs.«112403_j59167469470253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    block index did not move the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev r0_z : Rect S512x4096 := Rect.unit (s := S512x4096) ![0, 0] S512x4096.size inb_S512x4096_S512x4096_0_0
abbrev r0_w : Rect S4096x512 := Rect.unit (s := S4096x512) ![0, 0] S4096x512.size inb_S4096x512_S4096x512_0_0
abbrev r0_b : Rect S1x512 := Rect.unit (s := S1x512) ![0, 0] S1x512.size inb_S1x512_S1x512_0_0
abbrev r0_o : Rect S512x512 := Rect.unit (s := S512x512) ![0, 0] S512x512.size inb_S512x512_S512x512_0_0

/-- The output block after the body, from the five input blocks: its one store, of the whole block. -/
def out0_5 (x0 : Vec F S512x4096 .bf16) (x1 : Vec F S4096x512 .bf16) (x2 : Vec F S1x512 .f32) (x3 : Vec F S4096x512 .bf16) (x4 : Vec F S1x512 .f32) :
    Vec F S512x512 .bf16 :=
  View.canon [⟨r0_o, k0_pay1 (View.ld x0 r0_z) (View.ld x1 r0_w) (View.ld x2 r0_b) (View.ld x3 r0_w) (View.ld x4 r0_b)⟩]

/-- The one store covers the block. -/
theorem cover0_5 (p0 : Vec F S512x512 .bf16) (y : S512x512.Idx) :
    ∃ pc ∈ ([⟨r0_o, p0⟩] : List (View.Piece (Elt F) S512x512 .bf16)), y ∈ pc.1.set :=
  View.cover_of_tiled [⟨r0_o, p0⟩] S512x512.size (by rfl) y

/-! ## The body's triple -/

set_option maxHeartbeats 2000000 in
/-- On whole staging memrefs, the inputs' at contents `x·` and the output's at anything, the body runs to the
    continuation with the inputs as they were and the output at `out0_5` of the inputs. -/
theorem sound_kernel0 (c : Dev nD) (E : Set ℕ) (i : grid0.Coords)
    (arg2 : Memref sig .tc .vmem S512x4096 .bf16) (harg2 : arg2.IsWhole) (arg3 : Memref sig .tc .vmem S4096x512 .bf16) (harg3 : arg3.IsWhole)
    (arg4 : Memref sig .tc .vmem S1x512 .f32) (harg4 : arg4.IsWhole) (arg5 : Memref sig .tc .vmem S4096x512 .bf16) (harg5 : arg5.IsWhole)
    (arg6 : Memref sig .tc .vmem S1x512 .f32) (harg6 : arg6.IsWhole) (arg7 : Memref sig .tc .vmem S512x512 .bf16) (harg7 : arg7.IsWhole)
    (x0 : Vec F S512x4096 .bf16) (x1 : Vec F S4096x512 .bf16) (x2 : Vec F S1x512 .f32) (x3 : Vec F S4096x512 .bf16) (x4 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0_gate_content_kernel i arg2 harg2 arg3 harg3 arg4 harg4 arg5 harg5 arg6 harg6 arg7 harg7) K := by
  simp only [cc0_gate_content_kernel_eq_skeleton]; unfold cc0_gate_content_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t`
    each input's buffer at its block and the output's at `out0_5` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelR1Runs.lean ====
/-
  Region 1 (the output layer with the grouped normalisation): what its three control cases share.
  The grid is (row block i, column block o, hidden block k) with k innermost.  At k = 0 the body clears its
  accumulator; at every k it adds the k-th partial product; at k = 15 it adds the bias, normalises each group
  of 128 features and stores the output block.  The accumulator is a scratch buffer the kernel keeps from point
  to point; the output window is stored, and written back, at k = 15 only.
-/
import proofs.«112403_j59167469470253_1_alg».proof.Proof.Gen.Kernel.Launch
import proofs.«112403_j59167469470253_1_alg».proof.Proof.Gen.Kernel.Skeleton
import proofs.«112403_j59167469470253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is the first hidden block" (k = 0), as the body computes it from the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last hidden block" (k = 15). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last hidden block the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last hidden block it is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S1024x1024 .f32 := Memref.whole cc1_scratch0
abbrev VS1_0 : View sig .tc .vmem S1024x1024 .f32 := scM1_0.view

/-! ## The class invariant opened: the accumulator beside the first region's staging buffers -/

/-- The first region's twelve staging buffers, idle while this region runs, each at some contents. -/
def idleStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The class invariant hands out the accumulator at some contents, -/
theorem PhiA1_open (c : Dev nD) :
    (Pipeline.ΦA spec1 c : sProp 𝕄) ⊢ iprop(idleStaging (F := F) c ∗ (∃ d, owns (c : Thread nD τ) scM1_0 fullShare d) ∗ (∃ r, prngReg c r)) := by
  rw [PhiA1_eq]; unfold idleStaging
  iintro ⟨⟨G0, G1, G2, G3, G4, G5, G6, G7, G8, G9, G10, G11, HS⟩, Hg⟩
  isplitl [G0 G1 G2 G3 G4 G5 G6 G7 G8 G9 G10 G11]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11
  isplitl [HS]; · iexact HS
  iexact Hg

/-- and takes it back at any contents. -/
theorem PhiA1_close (c : Dev nD) :
    iprop(idleStaging (F := F) c ∗ (∃ d, owns (c : Thread nD τ) scM1_0 fullShare d) ∗ (∃ r, prngReg c r)) ⊢ (Pipeline.ΦA spec1 c : sProp 𝕄) := by
  rw [PhiA1_eq]; unfold idleStaging
  iintro ⟨⟨G0, G1, G2, G3, G4, G5, G6, G7, G8, G9, G10, G11⟩, HS, Hg⟩
  isplitl [G0 G1 G2 G3 G4 G5 G6 G7 G8 G9 G10 G11 HS]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    iexact HS
  iexact Hg

end Cert.Kernel.Frame

end
-- ==== Proof.KernelR1RunA.lean ====
/-
  Region 1's body at the first hidden block (k = 0): the accumulator is cleared, then the first partial product
  is added into it; the output window is left untouched.
-/
import proofs.«112403_j59167469470253_1_alg».proof.Proof.KernelR1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator at a point with k = 0, found by running the body, with the
    run itself: the inputs are handed back as they were, the idle output buffer untouched, the accumulator (entered
    at anything) with those pieces written. -/
noncomputable def kernelRun1_A (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_mlp_out_kernel i arg3 harg3 arg4 harg4 arg5 harg5 arg6 harg6 arg7 harg7 arg8 harg8) K } := by
  refine ⟨[], ?_, fun xi4 E K => ?run⟩
  case run =>
    simp only [cc1_mlp_out_kernel_eq_skeleton]; unfold cc1_mlp_out_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frame

end
-- ==== Proof.KernelR1RunB.lean ====
/-
  Region 1's body at an inner hidden block (0 < k < 15): the k-th partial product is added into the accumulator,
  which is entered at what the point before left; the output window is left untouched.
-/
import proofs.«112403_j59167469470253_1_alg».proof.Proof.KernelR1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the accumulator at a point with 0 < k < 15, found by running the body. -/
noncomputable def kernelRun1_B (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_mlp_out_kernel i arg3 harg3 arg4 harg4 arg5 harg5 arg6 harg6 arg7 harg7 arg8 harg8) K } := by
  refine ⟨[], ?_, fun xi4 E K => ?run⟩
  case run =>
    simp only [cc1_mlp_out_kernel_eq_skeleton]; unfold cc1_mlp_out_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frame

end
-- ==== Proof.KernelR1RunC.lean ====
/-
  Region 1's body at the last hidden block (k = 15): the last partial product is added into the accumulator, and
  the output block is stored: the accumulator plus the bias, each group of 128 features over its root mean
  square, times gamma.
-/
import proofs.«112403_j59167469470253_1_alg».proof.Proof.KernelR1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator at a point with k = 15, found by
    running the body. -/
noncomputable def kernelRun1_C (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_mlp_out_kernel i arg3 harg3 arg4 harg4 arg5 harg5 arg6 harg6 arg7 harg7 arg8 harg8) K } := by
  refine ⟨?_, ?_, fun E K => ?run⟩
  case run =>
    simp only [cc1_mlp_out_kernel_eq_skeleton]; unfold cc1_mlp_out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Frame

end
-- ==== Proof.KernelR1.lean ====
/-
  Region 1's frame half: what each control case leaves in the accumulator and in the output buffer, those
  contents point by point along the grid (`outsAt1`: the accumulator after point n is the case's result over what
  point n - 1 left), the invariant that carries the accumulator from point to point, and the body obligation.
-/
import proofs.«112403_j59167469470253_1_alg».proof.Proof.KernelR1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output buffer at the points where the window is idle: nothing reads it. -/
def out1_idle : Vec F S1024x1024 .f32 := VO1_4.read (Elt F) (VO1_4.writes (Elt F) VO1_4.junk [])

/-- At k = 0 the accumulator's pieces cover it. -/
theorem scover1_A_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) (y : S1024x1024.Idx) :
    ∃ pc ∈ (kernelRun1_A (F := F) c i arg3 harg3 arg4 harg4 arg5 harg5 arg6 harg6 arg7 harg7 arg8 harg8 hc0 hc1 x0 x1 x2 x3).2.1, y ∈ pc.1.set :=
  View.cover_of_tiledL (kernelRun1_A (F := F) c i arg3 harg3 arg4 harg4 arg5 harg5 arg6 harg6 arg7 harg7 arg8 harg8 hc0 hc1 x0 x1 x2 x3).2.1 S1024x1024.size (by sl_kernel_rfl) y
/-- What the case k = 0 leaves in the accumulator. -/
def sout1_A_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) : Vec F S1024x1024 .f32 :=
  VS1_0.read (Elt F) (VS1_0.writes (Elt F) VS1_0.junk (kernelRun1_A (F := F) c i arg3 harg3 arg4 harg4 arg5 harg5 arg6 harg6 arg7 harg7 arg8 harg8 hc0 hc1 x0 x1 x2 x3).2.1)

/-- At 0 < k < 15 the accumulator's pieces cover it. -/
theorem scover1_B_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) (y : S1024x1024.Idx) :
    ∃ pc ∈ (kernelRun1_B (F := F) c i arg3 harg3 arg4 harg4 arg5 harg5 arg6 harg6 arg7 harg7 arg8 harg8 hc0 hc1 x0 x1 x2 x3 xs0).2.1, y ∈ pc.1.set :=
  View.cover_of_tiledL (kernelRun1_B (F := F) c i arg3 harg3 arg4 harg4 arg5 harg5 arg6 harg6 arg7 harg7 arg8 harg8 hc0 hc1 x0 x1 x2 x3 xs0).2.1 S1024x1024.size (by sl_kernel_rfl) y
/-- What the case 0 < k < 15 leaves in the accumulator, over what it found there. -/
def sout1_B_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) : Vec F S1024x1024 .f32 :=
  VS1_0.read (Elt F) (VS1_0.writes (Elt F) VS1_0.junk (kernelRun1_B (F := F) c i arg3 harg3 arg4 harg4 arg5 harg5 arg6 harg6 arg7 harg7 arg8 harg8 hc0 hc1 x0 x1 x2 x3 xs0).2.1)

/-- At k = 15 the output buffer's pieces cover it, -/
theorem cover1_C_4 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) (y : S1024x1024.Idx) :
    ∃ pc ∈ (kernelRun1_C (F := F) c i arg3 harg3 arg4 harg4 arg5 harg5 arg6 harg6 arg7 harg7 arg8 harg8 hc0 hc1 x0 x1 x2 x3 xs0).1, y ∈ pc.1.set :=
  View.cover_of_tiledL (kernelRun1_C (F := F) c i arg3 harg3 arg4 harg4 arg5 harg5 arg6 harg6 arg7 harg7 arg8 harg8 hc0 hc1 x0 x1 x2 x3 xs0).1 S1024x1024.size (by sl_kernel_rfl) y
/-- and this is what the case leaves in it. -/
def out1_C_4 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) : Vec F S1024x1024 .f32 :=
  VO1_4.read (Elt F) (VO1_4.writes (Elt F) VO1_4.junk (kernelRun1_C (F := F) c i arg3 harg3 arg4 harg4 arg5 harg5 arg6 harg6 arg7 harg7 arg8 harg8 hc0 hc1 x0 x1 x2 x3 xs0).1)
/-- At k = 15 the accumulator's pieces cover it, -/
theorem scover1_C_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) (y : S1024x1024.Idx) :
    ∃ pc ∈ (kernelRun1_C (F := F) c i arg3 harg3 arg4 harg4 arg5 harg5 arg6 harg6 arg7 harg7 arg8 harg8 hc0 hc1 x0 x1 x2 x3 xs0).2.1, y ∈ pc.1.set :=
  View.cover_of_tiledL (kernelRun1_C (F := F) c i arg3 harg3 arg4 harg4 arg5 harg5 arg6 harg6 arg7 harg7 arg8 harg8 hc0 hc1 x0 x1 x2 x3 xs0).2.1 S1024x1024.size (by sl_kernel_rfl) y
/-- and this is what the case leaves in it. -/
def sout1_C_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) : Vec F S1024x1024 .f32 :=
  VS1_0.read (Elt F) (VS1_0.writes (Elt F) VS1_0.junk (kernelRun1_C (F := F) c i arg3 harg3 arg4 harg4 arg5 harg5 arg6 harg6 arg7 harg7 arg8 harg8 hc0 hc1 x0 x1 x2 x3 xs0).2.1)

/-! ## The contents point by point -/

/-- What the output buffer and the accumulator hold after the body at position `n`: the case the position is in
    (k = n mod 16), run on that point's blocks, over the accumulator the position before left. -/
def outsAt1 (c : Dev nD) : (n : ℕ) → n < cfg1.N → Vec F S1024x1024 .f32 × Vec F S1024x1024 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point with k = 0. -/
theorem outsAt1_A (c : Dev nD) (t : Fin cfg1.N) (h0 : t.val % 16 = 0) (h1 : ¬t.val % 16 = 15) :
    outsAt1 V c t.val t.isLt = (out1_idle, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with 0 < k < 15: over what the point before left. -/
theorem outsAt1_B (c : Dev nD) (t : Fin cfg1.N) (h0 : ¬t.val % 16 = 0) (h1 : ¬t.val % 16 = 15) :
    outsAt1 V c t.val t.isLt = (out1_idle, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 15: over what the point before left. -/
theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the first point the class's invariant (every scoped buffer at anything); afterwards the
    first region's idle staging buffers at anything, the accumulator at what the point before left, and the
    generator register at some state. -/
def PhiS (c : Dev nD) : (n : ℕ) → n ≤ cfg1.N → sProp 𝕄
  | 0, _ => Pipeline.ΦA spec1 c
  | n + 1, hn => iprop(idleStaging (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(idleStaging (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(idleStaging (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' memrefs hold their blocks; the position's k says which case runs; the
    invariant hands the body the accumulator at what the point before left (at anything at the very first point)
    and takes it back at this point's contents; at k < 15 the idle output buffer passes through untouched, at
    k = 15 it is left at the case's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 16 = 0
  · by_cases h1 : t.val % 16 = 15
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨Hst, HS0, Hg⟩
        iapply ((kernelRun1_A (F := F) c _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Hst HS0 Hg]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨Hst, HS0, Hg⟩, Ho, ⟨%d0, H0⟩, ⟨%d1, H1⟩, ⟨%d2, H2⟩, ⟨%d3, H3⟩, ⟨%d4, H4⟩⟩
        iapply ((kernelRun1_A (F := F) c _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Hst HS0 Hg]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    rw [PhiS_castSucc V c t, PhiS_pos V c _ _ hz]
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      iintro ⟨⟨Hst, HS0, Hg⟩, Ho, ⟨%d0, H0⟩, ⟨%d1, H1⟩, ⟨%d2, H2⟩, ⟨%d3, H3⟩, ⟨%d4, H4⟩⟩
      iapply ((kernelRun1_C (F := F) c _ _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hst HS0 Hg]
      · isplitl [Hst]; · iexact Hst
        isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      iintro ⟨⟨Hst, HS0, Hg⟩, Ho, ⟨%d0, H0⟩, ⟨%d1, H1⟩, ⟨%d2, H2⟩, ⟨%d3, H3⟩, ⟨%d4, H4⟩⟩
      iapply ((kernelRun1_B (F := F) c _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hst HS0 Hg]
      · isplitl [Hst]; · iexact Hst
        isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 512 := N_1; omega
  rw [show (dat1 V c).Φ (Fin.last cfg1.N) = PhiS V c (Fin.last cfg1.N).val (Nat.le_of_lt_succ (Fin.last cfg1.N).isLt) from rfl, PhiS_pos V c _ _ ht]
  iintro ⟨Hst, HS0, Hg⟩
  iapply (PhiA1_close (F := F) c)
  isplitl [Hst]; · iexact Hst
  isplitl [HS0]; · iexists _; iexact HS0
  iexact Hg

end Cert.Kernel.Frame

end
-- ==== Proof.KernelRun.lean ====
/-
  The whole run of @main: nine host operations (a reshape of the input to rows, the casts of the input and the
  weights, the biases and gamma as one-row matrices), the two kernel regions one after the other, and the
  reshape of the result.  The contents of every unscoped buffer are named at each boundary, as a fold from the
  launch memory: a host stretch applies its operations; a region leaves its arrays at what its write-backs make
  of them and every other buffer as it was.  From the launch over these segments every weakly fair execution
  terminates with every unscoped buffer at the last boundary's contents; the arguments, written by nothing, are
  there as launched.
-/
import proofs.«112403_j59167469470253_1_alg».proof.Proof.KernelR0
import proofs.«112403_j59167469470253_1_alg».proof.Proof.KernelR1
import Idealize.ShloMosaic.Lib.Pipeline.Regions
import Idealize.ShloMosaic.Lib.Pipeline.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the nine host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit (it is entered straight from region 0's exit). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing reshape. -/
abbrev W4 : Dev nD → Valuation τ sig (Elt F) := fun c => StableHlo.after hostOps2 (W3 m c)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`.  Its invariant is the class's at the first
    point and gives the class's back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.Kernel.Frame

end
-- ==== Proof.R0.lean ====
/-
  Region 0 (the gate/content layer): what the pipeline hands the body at a grid point and what the body leaves.
  At point (j, i) the body reads a block of 512 rows of the input, the j-th blocks of 512 columns of the two
  weight matrices and of the two biases, and stores one 512 x 512 block of the gated layer; nothing is carried
  from point to point.  The contents `V` of the buffers when the region is entered are a parameter.
-/
import proofs.«112403_j59167469470253_1_alg».proof.Proof.Gen.KernelIdeal.Launch
import proofs.«112403_j59167469470253_1_alg».proof.Proof.Gen.KernelIdeal.Skeleton
import proofs.«112403_j59167469470253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    block index did not move the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev r0_z : Rect S512x4096 := Rect.unit (s := S512x4096) ![0, 0] S512x4096.size inb_S512x4096_S512x4096_0_0
abbrev r0_w : Rect S4096x512 := Rect.unit (s := S4096x512) ![0, 0] S4096x512.size inb_S4096x512_S4096x512_0_0
abbrev r0_b : Rect S1x512 := Rect.unit (s := S1x512) ![0, 0] S1x512.size inb_S1x512_S1x512_0_0
abbrev r0_o : Rect S512x512 := Rect.unit (s := S512x512) ![0, 0] S512x512.size inb_S512x512_S512x512_0_0

/-- The output block after the body, from the five input blocks: its one store, of the whole block. -/
def out0_5 (x0 : Vec F S512x4096 .bf16) (x1 : Vec F S4096x512 .bf16) (x2 : Vec F S1x512 .f32) (x3 : Vec F S4096x512 .bf16) (x4 : Vec F S1x512 .f32) :
    Vec F S512x512 .bf16 :=
  View.canon [⟨r0_o, k0_pay1 (View.ld x0 r0_z) (View.ld x1 r0_w) (View.ld x2 r0_b) (View.ld x3 r0_w) (View.ld x4 r0_b)⟩]

/-- The one store covers the block. -/
theorem cover0_5 (p0 : Vec F S512x512 .bf16) (y : S512x512.Idx) :
    ∃ pc ∈ ([⟨r0_o, p0⟩] : List (View.Piece (Elt F) S512x512 .bf16)), y ∈ pc.1.set :=
  View.cover_of_tiled [⟨r0_o, p0⟩] S512x512.size (by rfl) y

/-! ## The body's triple -/

set_option maxHeartbeats 2000000 in
/-- On whole staging memrefs, the inputs' at contents `x·` and the output's at anything, the body runs to the
    continuation with the inputs as they were and the output at `out0_5` of the inputs. -/
theorem sound_kernel0 (c : Dev nD) (E : Set ℕ) (i : grid0.Coords)
    (arg2 : Memref sig .tc .vmem S512x4096 .bf16) (harg2 : arg2.IsWhole) (arg3 : Memref sig .tc .vmem S4096x512 .bf16) (harg3 : arg3.IsWhole)
    (arg4 : Memref sig .tc .vmem S1x512 .f32) (harg4 : arg4.IsWhole) (arg5 : Memref sig .tc .vmem S4096x512 .bf16) (harg5 : arg5.IsWhole)
    (arg6 : Memref sig .tc .vmem S1x512 .f32) (harg6 : arg6.IsWhole) (arg7 : Memref sig .tc .vmem S512x512 .bf16) (harg7 : arg7.IsWhole)
    (x0 : Vec F S512x4096 .bf16) (x1 : Vec F S4096x512 .bf16) (x2 : Vec F S1x512 .f32) (x3 : Vec F S4096x512 .bf16) (x4 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0_gate_content_kernel i arg2 harg2 arg3 harg3 arg4 harg4 arg5 harg5 arg6 harg6 arg7 harg7) K := by
  simp only [cc0_gate_content_kernel_eq_skeleton]; unfold cc0_gate_content_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t`
    each input's buffer at its block and the output's at `out0_5` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.R1Runs.lean ====
/-
  Region 1 (the output layer with the grouped normalisation): what its three control cases share.
  The grid is (row block i, column block o, hidden block k) with k innermost.  At k = 0 the body clears its
  accumulator; at every k it adds the k-th partial product; at k = 15 it adds the bias, normalises each group
  of 128 features and stores the output block.  The accumulator is a scratch buffer the kernel keeps from point
  to point; the output window is stored, and written back, at k = 15 only.
-/
import proofs.«112403_j59167469470253_1_alg».proof.Proof.Gen.KernelIdeal.Launch
import proofs.«112403_j59167469470253_1_alg».proof.Proof.Gen.KernelIdeal.Skeleton
import proofs.«112403_j59167469470253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is the first hidden block" (k = 0), as the body computes it from the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last hidden block" (k = 15). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last hidden block the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last hidden block it is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S1024x1024 .f32 := Memref.whole cc1_scratch0
abbrev VS1_0 : View sig .tc .vmem S1024x1024 .f32 := scM1_0.view

/-! ## The class invariant opened: the accumulator beside the first region's staging buffers -/

/-- The first region's twelve staging buffers, idle while this region runs, each at some contents. -/
def idleStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The class invariant hands out the accumulator at some contents, -/
theorem PhiA1_open (c : Dev nD) :
    (Pipeline.ΦA spec1 c : sProp 𝕄) ⊢ iprop(idleStaging (F := F) c ∗ (∃ d, owns (c : Thread nD τ) scM1_0 fullShare d) ∗ (∃ r, prngReg c r)) := by
  rw [PhiA1_eq]; unfold idleStaging
  iintro ⟨⟨G0, G1, G2, G3, G4, G5, G6, G7, G8, G9, G10, G11, HS⟩, Hg⟩
  isplitl [G0 G1 G2 G3 G4 G5 G6 G7 G8 G9 G10 G11]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11
  isplitl [HS]; · iexact HS
  iexact Hg

/-- and takes it back at any contents. -/
theorem PhiA1_close (c : Dev nD) :
    iprop(idleStaging (F := F) c ∗ (∃ d, owns (c : Thread nD τ) scM1_0 fullShare d) ∗ (∃ r, prngReg c r)) ⊢ (Pipeline.ΦA spec1 c : sProp 𝕄) := by
  rw [PhiA1_eq]; unfold idleStaging
  iintro ⟨⟨G0, G1, G2, G3, G4, G5, G6, G7, G8, G9, G10, G11⟩, HS, Hg⟩
  isplitl [G0 G1 G2 G3 G4 G5 G6 G7 G8 G9 G10 G11 HS]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    iexact HS
  iexact Hg

end Cert.KernelIdeal.Frame

end
-- ==== Proof.R1RunA.lean ====
/-
  Region 1's body at the first hidden block (k = 0): the accumulator is cleared, then the first partial product
  is added into it; the output window is left untouched.
-/
import proofs.«112403_j59167469470253_1_alg».proof.Proof.R1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator at a point with k = 0, found by running the body, with the
    run itself: the inputs are handed back as they were, the idle output buffer untouched, the accumulator (entered
    at anything) with those pieces written. -/
noncomputable def kernelRun1_A (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_mlp_out_kernel i arg3 harg3 arg4 harg4 arg5 harg5 arg6 harg6 arg7 harg7 arg8 harg8) K } := by
  refine ⟨[], ?_, fun xi4 E K => ?run⟩
  case run =>
    simp only [cc1_mlp_out_kernel_eq_skeleton]; unfold cc1_mlp_out_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frame

end
-- ==== Proof.R1RunB.lean ====
/-
  Region 1's body at an inner hidden block (0 < k < 15): the k-th partial product is added into the accumulator,
  which is entered at what the point before left; the output window is left untouched.
-/
import proofs.«112403_j59167469470253_1_alg».proof.Proof.R1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the accumulator at a point with 0 < k < 15, found by running the body. -/
noncomputable def kernelRun1_B (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_mlp_out_kernel i arg3 harg3 arg4 harg4 arg5 harg5 arg6 harg6 arg7 harg7 arg8 harg8) K } := by
  refine ⟨[], ?_, fun xi4 E K => ?run⟩
  case run =>
    simp only [cc1_mlp_out_kernel_eq_skeleton]; unfold cc1_mlp_out_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frame

end
-- ==== Proof.R1RunC.lean ====
/-
  Region 1's body at the last hidden block (k = 15): the last partial product is added into the accumulator, and
  the output block is stored: the accumulator plus the bias, each group of 128 features over its root mean
  square, times gamma.
-/
import proofs.«112403_j59167469470253_1_alg».proof.Proof.R1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator at a point with k = 15, found by
    running the body. -/
noncomputable def kernelRun1_C (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_mlp_out_kernel i arg3 harg3 arg4 harg4 arg5 harg5 arg6 harg6 arg7 harg7 arg8 harg8) K } := by
  refine ⟨?_, ?_, fun E K => ?run⟩
  case run =>
    simp only [cc1_mlp_out_kernel_eq_skeleton]; unfold cc1_mlp_out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Frame

end
-- ==== Proof.R1.lean ====
/-
  Region 1's frame half: what each control case leaves in the accumulator and in the output buffer, those
  contents point by point along the grid (`outsAt1`: the accumulator after point n is the case's result over what
  point n - 1 left), the invariant that carries the accumulator from point to point, and the body obligation.
-/
import proofs.«112403_j59167469470253_1_alg».proof.Proof.R1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output buffer at the points where the window is idle: nothing reads it. -/
def out1_idle : Vec F S1024x1024 .f32 := VO1_4.read (Elt F) (VO1_4.writes (Elt F) VO1_4.junk [])

/-- At k = 0 the accumulator's pieces cover it. -/
theorem scover1_A_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) (y : S1024x1024.Idx) :
    ∃ pc ∈ (kernelRun1_A (F := F) c i arg3 harg3 arg4 harg4 arg5 harg5 arg6 harg6 arg7 harg7 arg8 harg8 hc0 hc1 x0 x1 x2 x3).2.1, y ∈ pc.1.set :=
  View.cover_of_tiledL (kernelRun1_A (F := F) c i arg3 harg3 arg4 harg4 arg5 harg5 arg6 harg6 arg7 harg7 arg8 harg8 hc0 hc1 x0 x1 x2 x3).2.1 S1024x1024.size (by sl_kernel_rfl) y
/-- What the case k = 0 leaves in the accumulator. -/
def sout1_A_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) : Vec F S1024x1024 .f32 :=
  VS1_0.read (Elt F) (VS1_0.writes (Elt F) VS1_0.junk (kernelRun1_A (F := F) c i arg3 harg3 arg4 harg4 arg5 harg5 arg6 harg6 arg7 harg7 arg8 harg8 hc0 hc1 x0 x1 x2 x3).2.1)

/-- At 0 < k < 15 the accumulator's pieces cover it. -/
theorem scover1_B_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) (y : S1024x1024.Idx) :
    ∃ pc ∈ (kernelRun1_B (F := F) c i arg3 harg3 arg4 harg4 arg5 harg5 arg6 harg6 arg7 harg7 arg8 harg8 hc0 hc1 x0 x1 x2 x3 xs0).2.1, y ∈ pc.1.set :=
  View.cover_of_tiledL (kernelRun1_B (F := F) c i arg3 harg3 arg4 harg4 arg5 harg5 arg6 harg6 arg7 harg7 arg8 harg8 hc0 hc1 x0 x1 x2 x3 xs0).2.1 S1024x1024.size (by sl_kernel_rfl) y
/-- What the case 0 < k < 15 leaves in the accumulator, over what it found there. -/
def sout1_B_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) : Vec F S1024x1024 .f32 :=
  VS1_0.read (Elt F) (VS1_0.writes (Elt F) VS1_0.junk (kernelRun1_B (F := F) c i arg3 harg3 arg4 harg4 arg5 harg5 arg6 harg6 arg7 harg7 arg8 harg8 hc0 hc1 x0 x1 x2 x3 xs0).2.1)

/-- At k = 15 the output buffer's pieces cover it, -/
theorem cover1_C_4 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) (y : S1024x1024.Idx) :
    ∃ pc ∈ (kernelRun1_C (F := F) c i arg3 harg3 arg4 harg4 arg5 harg5 arg6 harg6 arg7 harg7 arg8 harg8 hc0 hc1 x0 x1 x2 x3 xs0).1, y ∈ pc.1.set :=
  View.cover_of_tiledL (kernelRun1_C (F := F) c i arg3 harg3 arg4 harg4 arg5 harg5 arg6 harg6 arg7 harg7 arg8 harg8 hc0 hc1 x0 x1 x2 x3 xs0).1 S1024x1024.size (by sl_kernel_rfl) y
/-- and this is what the case leaves in it. -/
def out1_C_4 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) : Vec F S1024x1024 .f32 :=
  VO1_4.read (Elt F) (VO1_4.writes (Elt F) VO1_4.junk (kernelRun1_C (F := F) c i arg3 harg3 arg4 harg4 arg5 harg5 arg6 harg6 arg7 harg7 arg8 harg8 hc0 hc1 x0 x1 x2 x3 xs0).1)
/-- At k = 15 the accumulator's pieces cover it, -/
theorem scover1_C_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) (y : S1024x1024.Idx) :
    ∃ pc ∈ (kernelRun1_C (F := F) c i arg3 harg3 arg4 harg4 arg5 harg5 arg6 harg6 arg7 harg7 arg8 harg8 hc0 hc1 x0 x1 x2 x3 xs0).2.1, y ∈ pc.1.set :=
  View.cover_of_tiledL (kernelRun1_C (F := F) c i arg3 harg3 arg4 harg4 arg5 harg5 arg6 harg6 arg7 harg7 arg8 harg8 hc0 hc1 x0 x1 x2 x3 xs0).2.1 S1024x1024.size (by sl_kernel_rfl) y
/-- and this is what the case leaves in it. -/
def sout1_C_0 (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) : Vec F S1024x1024 .f32 :=
  VS1_0.read (Elt F) (VS1_0.writes (Elt F) VS1_0.junk (kernelRun1_C (F := F) c i arg3 harg3 arg4 harg4 arg5 harg5 arg6 harg6 arg7 harg7 arg8 harg8 hc0 hc1 x0 x1 x2 x3 xs0).2.1)

/-! ## The contents point by point -/

/-- What the output buffer and the accumulator hold after the body at position `n`: the case the position is in
    (k = n mod 16), run on that point's blocks, over the accumulator the position before left. -/
def outsAt1 (c : Dev nD) : (n : ℕ) → n < cfg1.N → Vec F S1024x1024 .f32 × Vec F S1024x1024 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point with k = 0. -/
theorem outsAt1_A (c : Dev nD) (t : Fin cfg1.N) (h0 : t.val % 16 = 0) (h1 : ¬t.val % 16 = 15) :
    outsAt1 V c t.val t.isLt = (out1_idle, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with 0 < k < 15: over what the point before left. -/
theorem outsAt1_B (c : Dev nD) (t : Fin cfg1.N) (h0 : ¬t.val % 16 = 0) (h1 : ¬t.val % 16 = 15) :
    outsAt1 V c t.val t.isLt = (out1_idle, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 15: over what the point before left. -/
theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the first point the class's invariant (every scoped buffer at anything); afterwards the
    first region's idle staging buffers at anything, the accumulator at what the point before left, and the
    generator register at some state. -/
def PhiS (c : Dev nD) : (n : ℕ) → n ≤ cfg1.N → sProp 𝕄
  | 0, _ => Pipeline.ΦA spec1 c
  | n + 1, hn => iprop(idleStaging (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(idleStaging (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(idleStaging (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' memrefs hold their blocks; the position's k says which case runs; the
    invariant hands the body the accumulator at what the point before left (at anything at the very first point)
    and takes it back at this point's contents; at k < 15 the idle output buffer passes through untouched, at
    k = 15 it is left at the case's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 16 = 0
  · by_cases h1 : t.val % 16 = 15
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨Hst, HS0, Hg⟩
        iapply ((kernelRun1_A (F := F) c _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Hst HS0 Hg]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨Hst, HS0, Hg⟩, Ho, ⟨%d0, H0⟩, ⟨%d1, H1⟩, ⟨%d2, H2⟩, ⟨%d3, H3⟩, ⟨%d4, H4⟩⟩
        iapply ((kernelRun1_A (F := F) c _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Hst HS0 Hg]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    rw [PhiS_castSucc V c t, PhiS_pos V c _ _ hz]
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      iintro ⟨⟨Hst, HS0, Hg⟩, Ho, ⟨%d0, H0⟩, ⟨%d1, H1⟩, ⟨%d2, H2⟩, ⟨%d3, H3⟩, ⟨%d4, H4⟩⟩
      iapply ((kernelRun1_C (F := F) c _ _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hst HS0 Hg]
      · isplitl [Hst]; · iexact Hst
        isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      iintro ⟨⟨Hst, HS0, Hg⟩, Ho, ⟨%d0, H0⟩, ⟨%d1, H1⟩, ⟨%d2, H2⟩, ⟨%d3, H3⟩, ⟨%d4, H4⟩⟩
      iapply ((kernelRun1_B (F := F) c _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hst HS0 Hg]
      · isplitl [Hst]; · iexact Hst
        isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 512 := N_1; omega
  rw [show (dat1 V c).Φ (Fin.last cfg1.N) = PhiS V c (Fin.last cfg1.N).val (Nat.le_of_lt_succ (Fin.last cfg1.N).isLt) from rfl, PhiS_pos V c _ _ ht]
  iintro ⟨Hst, HS0, Hg⟩
  iapply (PhiA1_close (F := F) c)
  isplitl [Hst]; · iexact Hst
  isplitl [HS0]; · iexists _; iexact HS0
  iexact Hg

end Cert.KernelIdeal.Frame

end
-- ==== Proof.Run.lean ====
/-
  The whole run of @main: nine host operations (a reshape of the input to rows, the casts of the input and the
  weights, the biases and gamma as one-row matrices), the two kernel regions one after the other, and the
  reshape of the result.  The contents of every unscoped buffer are named at each boundary, as a fold from the
  launch memory: a host stretch applies its operations; a region leaves its arrays at what its write-backs make
  of them and every other buffer as it was.  From the launch over these segments every weakly fair execution
  terminates with every unscoped buffer at the last boundary's contents; the arguments, written by nothing, are
  there as launched.
-/
import proofs.«112403_j59167469470253_1_alg».proof.Proof.R0
import proofs.«112403_j59167469470253_1_alg».proof.Proof.R1
import Idealize.ShloMosaic.Lib.Pipeline.Regions
import Idealize.ShloMosaic.Lib.Pipeline.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the nine host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit (it is entered straight from region 0's exit). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing reshape. -/
abbrev W4 : Dev nD → Valuation τ sig (Elt F) := fun c => StableHlo.after hostOps2 (W3 m c)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`.  Its invariant is the class's at the first
    point and gives the class's back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.KernelIdeal.Frame

end
-- ==== Proof.Spec.lean ====
/-
  What both programs compute, as functions on the extended reals, index by index.

  Rows are the flattened (batch, position) pairs: row `r = 2048 * b + s`.  For a row `r`:
    gate    r n = (∑ d, z r d * W1 d n) + b1 n
    content r n = (∑ d, z r d * W2 d n) + b2 n
    gated   r n = content r n * logistic (gate r n)
    y       r o = (∑ n, gated r n * W3 n o) + b3 o
  and the output divides each entry of `y` by the root of the mean square of its group of 128 consecutive
  features plus a small constant, then scales by `gamma`:
    out r o = y r o / sqrt ((∑ l < 128, y r (128 * (o / 128) + l) ^ 2) / 128 + eps) * gamma o.
-/
import Idealize.ShloMosaic.PureOps.Ideal
import Idealize.ShloMosaic.Lib.ValueIdx

noncomputable section

namespace Cert.Spec

open Idealize.ShloMosaic Idealize.ShloMosaic.ValueIdx

/-- A matrix of extended reals. -/
abbrev Mat (m n : Nat) : Type := (⟨2, ![m, n]⟩ : Shape).Idx → EReal
/-- A vector of extended reals. -/
abbrev Vct (n : Nat) : Type := (⟨1, ![n]⟩ : Shape).Idx → EReal
/-- A rank-3 array of extended reals. -/
abbrev Cube (a b c : Nat) : Type := (⟨3, ![a, b, c]⟩ : Shape).Idx → EReal

/-- An affine layer: row `r` of `x` against column `n` of `W`, plus the bias at `n`. -/
def lin {M K N : Nat} (x : Mat M K) (W : Mat K N) (b : Vct N) : Mat M N :=
  fun j => (∑ d : Fin K, x (ix2 (j 0) d) * W (ix2 d (j 1))) + b (ix1 (j 1))

/-- The gated hidden layer: the content layer times the logistic of the gate layer. -/
def gated (z : Mat 8192 4096) (W1 : Mat 4096 8192) (b1 : Vct 8192) (W2 : Mat 4096 8192) (b2 : Vct 8192) : Mat 8192 8192 :=
  fun j => lin z W2 b2 j * Ideal.logistic (lin z W1 b1 j)

/-- Feature `l` of the group of 128 consecutive features that holds feature `o`. -/
def grpCol (o : Fin 4096) (l : Fin 128) : Fin 4096 := ⟨128 * (o.val / 128) + l.val, by omega⟩

/-- The divisor of the mean, 128, and the constant added under the root, as the two programs spell them. -/
abbrev c128 : EReal := Ideal.ofBits .f32 0x43000000#32
abbrev ceps : EReal := Ideal.ofBits .f32 0x358637BD#32

/-- The mean square of the group of 128 features that holds feature `o`, in row `r`. -/
def meanSq (y : Mat 8192 4096) (r : Fin 8192) (o : Fin 4096) : EReal :=
  Ideal.div (∑ l : Fin 128, y (ix2 r (grpCol o l)) * y (ix2 r (grpCol o l))) c128

/-- Each entry over the root mean square of its group (plus the constant), scaled by `gamma`. -/
def groupNorm (y : Mat 8192 4096) (gamma : Vct 4096) : Mat 8192 4096 :=
  fun j => Ideal.div (y j) (Ideal.sqrt (meanSq y (j 0) (j 1) + ceps)) * gamma (ix1 (j 1))

/-- The whole network on rows. -/
def out2 (z : Mat 8192 4096) (W1 : Mat 4096 8192) (b1 : Vct 8192) (W2 : Mat 4096 8192) (b2 : Vct 8192)
    (W3 : Mat 8192 4096) (b3 : Vct 4096) (gamma : Vct 4096) : Mat 8192 4096 :=
  groupNorm (lin (gated z W1 b1 W2 b2) W3 b3) gamma

/-- Row `r` as a (batch, position) pair. -/
def rowB (r : Fin 8192) : Fin 4 := ⟨r.val / 2048, by omega⟩
def rowS (r : Fin 8192) : Fin 2048 := ⟨r.val % 2048, by omega⟩
/-- The row of a (batch, position) pair. -/
def rowOf (b : Fin 4) (s : Fin 2048) : Fin 8192 := ⟨2048 * b.val + s.val, by omega⟩

/-- The input read by rows. -/
def rows (z : Cube 4 2048 4096) : Mat 8192 4096 := fun j => z (ix3 (rowB (j 0)) (rowS (j 0)) (j 1))

/-- The whole network on the rank-3 input. -/
def out3 (z : Cube 4 2048 4096) (W1 : Mat 4096 8192) (b1 : Vct 8192) (W2 : Mat 4096 8192) (b2 : Vct 8192)
    (W3 : Mat 8192 4096) (b3 : Vct 4096) (gamma : Vct 4096) : Cube 4 2048 4096 :=
  fun i => out2 (rows z) W1 b1 W2 b2 W3 b3 gamma (ix2 (rowOf (i 0) (i 1)) (i 2))

end Cert.Spec

end
-- ==== Proof.ValueDefs.lean ====
/-
  The two regions' results as the specification's functions of the arrays each region is entered with.
-/
import proofs.«112403_j59167469470253_1_alg».proof.Proof.R0
import proofs.«112403_j59167469470253_1_alg».proof.Proof.R1
import proofs.«112403_j59167469470253_1_alg».proof.Proof.Spec
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- A one-row matrix read as a vector. -/
def rowVec {n : Nat} (x : (⟨2, ![1, n]⟩ : Shape).Idx → EReal) : Cert.Spec.Vct n := fun j => x (ix2 (0 : Fin 1) (j 0))

/-- The gated hidden layer of the arrays region 0 is entered with: rows `main_v1`, the gate's weights and bias
    `main_v2`, `main_v5`, the content's `main_v3`, `main_v6`. -/
def gatedOf (c : Dev nD) : Cert.Spec.Mat 8192 8192 :=
  Cert.Spec.gated (V c main_v1) (V c main_v2) (rowVec (V c main_v5)) (V c main_v3) (rowVec (V c main_v6))

/-- The normalised output layer of the arrays region 1 is entered with: the hidden layer `main_v9`, the weights
    `main_v4`, the bias `main_v7`, the scale `main_v8`. -/
def normOf (c : Dev nD) : Cert.Spec.Mat 8192 4096 :=
  Cert.Spec.groupNorm (Cert.Spec.lin (V c main_v9) (V c main_v4) (rowVec (V c main_v7))) (rowVec (V c main_v8))

end Cert.KernelIdeal.Frame

end
-- ==== Proof.R0Value.lean ====
/-
  Region 0 at the ideal instance: after the region its output array holds the gated hidden layer.

  At grid point (j, i) the body multiplies a block of 512 rows of the input against the j-th blocks of 512
  columns of the gate's and of the content's weights, adds the matching 512 entries of each bias, and stores
  content * logistic gate as block (i, j) of the output.  Entry (p, q) of that block depends on row
  512 i + p of the input and on column 512 j + q of the weights and biases only, so it is entry
  (512 i + p, 512 j + q) of the gated layer; the 16 x 16 blocks tile the 8192 x 8192 output.
-/
import proofs.«112403_j59167469470253_1_alg».proof.Proof.ValueDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

namespace Region0

/-! ## The body's arithmetic at an entry -/

/-- The block product's left index keeps the output's row, -/
theorem lhs_mm0_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
/-- and runs over the contracted axis in its columns; -/
theorem lhs_mm0_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- the right index runs over the contracted axis in its rows -/
theorem rhs_mm0_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- and keeps the output's column. -/
theorem rhs_mm0_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- A 512 x 4096 block against a 4096 x 512 block into the zero block: entry (p, q) is the sum over the 4096
    contracted positions of row p of the left times column q of the right. -/
theorem mm0_apply (x : FVec Ideal S512x4096 .bf16) (w : FVec Ideal S4096x512 .bf16) (p q : Fin 512) :
    matmul dot_S512x4096_S4096x512_S512x512_1_0_0_1_n_n none x w (constant S512x512 .f32 0x00000000#32) (ix2 p q)
      = ∑ k : Fin 4096, x (ix2 p k) * w (ix2 k q) := by
  simp only [matmul]
  rw [Ideal.matmul_constant_zero_apply, ← Equiv.sum_comp (ValueIdx.contrEquiv1 dot_S512x4096_S4096x512_S512x512_1_0_0_1_n_n 4096 rfl rfl).symm]
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx (ix2 p q) ((ValueIdx.contrEquiv1 dot_S512x4096_S4096x512_S512x512_1_0_0_1_n_n 4096 rfl rfl).symm k) = ix2 p k := funext fun a => Fin.ext (by
    match a with
    | ⟨0, _⟩ => exact lhs_mm0_0 _ _
    | ⟨1, _⟩ => exact (lhs_mm0_1 _ _).trans hk)
  have er : dot_S512x4096_S4096x512_S512x512_1_0_0_1_n_n.rhsIdx (ix2 p q) ((ValueIdx.contrEquiv1 dot_S512x4096_S4096x512_S512x512_1_0_0_1_n_n 4096 rfl rfl).symm k) = ix2 k q := funext fun a => Fin.ext (by
    match a with
    | ⟨0, _⟩ => exact (rhs_mm0_0 _ _).trans hk
    | ⟨1, _⟩ => exact rhs_mm0_1 _ _)
  rw [el, er]

/-- The stored block at entry (p, q): the content's affine form times the logistic of the gate's, each a sum over
    the 4096 input features of row p of the input block against column q of a weight block, plus entry q of a
    bias block; the changes of format are the identity on the extended reals. -/
theorem pay0_apply (x0 : Vec Ideal S512x4096 .bf16) (x1 : Vec Ideal S4096x512 .bf16) (x2 : Vec Ideal S1x512 .f32)
    (x3 : Vec Ideal S4096x512 .bf16) (x4 : Vec Ideal S1x512 .f32) (p q : Fin 512) :
    k0_pay1 (F := Ideal) x0 x1 x2 x3 x4 (ix2 p q)
      = ((∑ k : Fin 4096, x0 (ix2 p k) * x3 (ix2 k q)) + x4 (ix2 (0 : Fin 1) q))
        * Ideal.logistic ((∑ k : Fin 4096, x0 (ix2 p k) * x1 (ix2 k q)) + x2 (ix2 (0 : Fin 1) q)) := by
  unfold k0_pay1
  simp only [shapeCast_self]
  rw [truncf_apply, mulf_apply]
  refine congrArg₂ (· * ·) ?_ (congrArg Ideal.logistic ?_)
  · rw [addf_apply, mm0_apply, broadcastTo_1b_ab_apply]
  · rw [addf_apply, mm0_apply, broadcastTo_1b_ab_apply]

variable (V : (c : Dev nD) → (b : Ref sig .tc) → Buf (Elt Ideal) ((c : Thread nD τ).loc b))

/-! ## From blocks to the array -/

theorem hz0 : (![0, 0] : Fin 2 → Nat) = fun _ => 0 := funext fun a => by fin_cases a <;> rfl

/-- The printed index maps, decided over the grid: point t = 16 j + i reads row block i of the input, column
    block j of both weights and both biases, and writes block (i, j) of the output. -/
theorem idx_facts0 : ∀ t : Fin cfg0.N,
    win0_5.index t (0 : Fin 2) = t.val % 16 ∧ win0_5.index t (1 : Fin 2) = t.val / 16
    ∧ win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = 0 ∧ win0_2.index t (1 : Fin 2) = t.val / 16
    ∧ win0_3.index t (0 : Fin 2) = 0 ∧ win0_3.index t (1 : Fin 2) = t.val / 16
    ∧ win0_4.index t (0 : Fin 2) = 0 ∧ win0_4.index t (1 : Fin 2) = t.val / 16 :=
  (by decide +kernel : ∀ t : Fin grid0.N, _)

/-- The gated layer at entry (r, n), written out. -/
theorem gated_at (z : Cert.Spec.Mat 8192 4096) (W1 : Cert.Spec.Mat 4096 8192) (b1 : Cert.Spec.Vct 8192)
    (W2 : Cert.Spec.Mat 4096 8192) (b2 : Cert.Spec.Vct 8192) (r n : Fin 8192) :
    Cert.Spec.gated z W1 b1 W2 b2 (ix2 r n)
      = ((∑ d : Fin 4096, z (ix2 r d) * W2 (ix2 d n)) + b2 (ix1 n))
        * Ideal.logistic ((∑ d : Fin 4096, z (ix2 r d) * W1 (ix2 d n)) + b1 (ix1 n)) := rfl

/-- Entry (p, k) of the input's block at point t is entry (512 i + p, k) of the input. -/
theorem zblk_apply (c : Dev nD) (t : Fin cfg0.N) (p : Fin 512) (k : Fin 4096) (r : Fin 8192)
    (hr : r.val = 512 * (t.val % 16) + p.val) :
    (iblk0 V c 0 t : S512x4096.Idx → EReal) (ix2 p k) = (V c main_v1 : S8192x4096.Idx → EReal) (ix2 r k) := by
  obtain ⟨-, -, e0, e1, -⟩ := idx_facts0 t
  unfold iblk0
  rw [View.read_apply]
  show (V c main_v1 : S8192x4096.Idx → EReal) (((cfg0.win 0).blk t).view.emb (ix2 p k)) = _
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Entry (k, q) of the gate weights' block at point t is entry (k, 512 j + q) of the gate's weights. -/
theorem w1blk_apply (c : Dev nD) (t : Fin cfg0.N) (k : Fin 4096) (q : Fin 512) (n : Fin 8192)
    (hn : n.val = 512 * (t.val / 16) + q.val) :
    (iblk0 V c 1 t : S4096x512.Idx → EReal) (ix2 k q) = (V c main_v2 : S4096x8192.Idx → EReal) (ix2 k n) := by
  obtain ⟨-, -, -, -, e0, e1, -⟩ := idx_facts0 t
  unfold iblk0
  rw [View.read_apply]
  show (V c main_v2 : S4096x8192.Idx → EReal) (((cfg0.win 1).blk t).view.emb (ix2 k q)) = _
  refine congrArg _ (funext fun a => Fin.ext ?_)
  match a with
  | ⟨0, _⟩ => show win0_1.index t (0 : Fin 2) * 4096 + 1 * k.val = k.val; omega
  | ⟨1, _⟩ => show win0_1.index t (1 : Fin 2) * 512 + 1 * q.val = n.val; omega

/-- Entry q of the gate bias's block at point t is entry 512 j + q of the gate's bias row. -/
theorem b1blk_apply (c : Dev nD) (t : Fin cfg0.N) (q : Fin 512) (n : Fin 8192)
    (hn : n.val = 512 * (t.val / 16) + q.val) :
    (iblk0 V c 2 t : S1x512.Idx → EReal) (ix2 (0 : Fin 1) q) = (V c main_v5 : S1x8192.Idx → EReal) (ix2 (0 : Fin 1) n) := by
  obtain ⟨-, -, -, -, -, -, e0, e1, -⟩ := idx_facts0 t
  unfold iblk0
  rw [View.read_apply]
  show (V c main_v5 : S1x8192.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = n.val; omega

/-- Entry (k, q) of the content weights' block at point t is entry (k, 512 j + q) of the content's weights. -/
theorem w2blk_apply (c : Dev nD) (t : Fin cfg0.N) (k : Fin 4096) (q : Fin 512) (n : Fin 8192)
    (hn : n.val = 512 * (t.val / 16) + q.val) :
    (iblk0 V c 3 t : S4096x512.Idx → EReal) (ix2 k q) = (V c main_v3 : S4096x8192.Idx → EReal) (ix2 k n) := by
  obtain ⟨-, -, -, -, -, -, -, -, e0, e1, -⟩ := idx_facts0 t
  unfold iblk0
  rw [View.read_apply]
  show (V c main_v3 : S4096x8192.Idx → EReal) (((cfg0.win 3).blk t).view.emb (ix2 k q)) = _
  refine congrArg _ (funext fun a => Fin.ext ?_)
  match a with
  | ⟨0, _⟩ => show win0_3.index t (0 : Fin 2) * 4096 + 1 * k.val = k.val; omega
  | ⟨1, _⟩ => show win0_3.index t (1 : Fin 2) * 512 + 1 * q.val = n.val; omega

/-- Entry q of the content bias's block at point t is entry 512 j + q of the content's bias row. -/
theorem b2blk_apply (c : Dev nD) (t : Fin cfg0.N) (q : Fin 512) (n : Fin 8192)
    (hn : n.val = 512 * (t.val / 16) + q.val) :
    (iblk0 V c 4 t : S1x512.Idx → EReal) (ix2 (0 : Fin 1) q) = (V c main_v6 : S1x8192.Idx → EReal) (ix2 (0 : Fin 1) n) := by
  obtain ⟨-, -, -, -, -, -, -, -, -, -, e0, e1⟩ := idx_facts0 t
  unfold iblk0
  rw [View.read_apply]
  show (V c main_v6 : S1x8192.Idx → EReal) (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = n.val; omega

/-- Entry (p, q) of the output's block at point t sits at (512 i + p, 512 j + q) of the output. -/
theorem oblk_emb (t : Fin cfg0.N) (p q : Fin 512) (r n : Fin 8192)
    (hr : r.val = 512 * (t.val % 16) + p.val) (hn : n.val = 512 * (t.val / 16) + q.val) :
    (((cfg0.win 5).blk t).view.emb (ix2 p q) : S8192x8192.Idx) = ix2 r n := by
  obtain ⟨e0, e1, -⟩ := idx_facts0 t
  refine funext fun a => Fin.ext ?_
  match a with
  | ⟨0, _⟩ => show win0_5.index t (0 : Fin 2) * 512 + 1 * p.val = r.val; omega
  | ⟨1, _⟩ => show win0_5.index t (1 : Fin 2) * 512 + 1 * q.val = n.val; omega

/-- What point t writes back is its block of the gated layer. -/
theorem flushed0_5_eq (c : Dev nD) (t : Fin cfg0.N) :
    (dat0 (F := Ideal) V c).flushed 5 t = ((cfg0.win 5).blk t).view.read (Elt Ideal) (gatedOf V c) := by
  show (cfg0.win 5).cut (grid0.coords t) ((dat0 (F := Ideal) V c).after 5 t) = _
  rw [after0_5]
  unfold out0_5
  rw [View.canon_unit_zero hz0]
  simp only [View.ld_unit_zero (S := S512x4096) hz0, View.ld_unit_zero (S := S4096x512) hz0, View.ld_unit_zero (S := S1x512) hz0]
  funext j
  obtain ⟨p, q, rfl⟩ : ∃ (p q : Fin 512), j = ix2 p q := ⟨j 0, j 1, eq_ix2 j⟩
  have ht : t.val < 256 := t.isLt
  have hr : 512 * (t.val % 16) + p.val < 8192 := by have := p.isLt; omega
  have hn : 512 * (t.val / 16) + q.val < 8192 := by have := q.isLt; omega
  rw [View.read_apply, oblk_emb t p q ⟨_, hr⟩ ⟨_, hn⟩ rfl rfl]
  show k0_pay1 (F := Ideal) (iblk0 V c 0 t) (iblk0 V c 1 t) (iblk0 V c 2 t) (iblk0 V c 3 t) (iblk0 V c 4 t) (ix2 p q) = _
  refine (pay0_apply (iblk0 V c 0 t) (iblk0 V c 1 t) (iblk0 V c 2 t) (iblk0 V c 3 t) (iblk0 V c 4 t) p q).trans ?_
  unfold gatedOf
  rw [gated_at]
  refine congrArg₂ (· * ·) (congrArg₂ (· + ·) (Finset.sum_congr rfl fun k _ => congrArg₂ (· * ·) ?_ ?_) ?_)
    (congrArg Ideal.logistic (congrArg₂ (· + ·) (Finset.sum_congr rfl fun k _ => congrArg₂ (· * ·) ?_ ?_) ?_))
  · exact zblk_apply V c t p k ⟨_, hr⟩ rfl
  · exact w2blk_apply V c t k q ⟨_, hn⟩ rfl
  · exact b2blk_apply V c t q ⟨_, hn⟩ rfl
  · exact zblk_apply V c t p k ⟨_, hr⟩ rfl
  · exact w1blk_apply V c t k q ⟨_, hn⟩ rfl
  · exact b1blk_apply V c t q ⟨_, hn⟩ rfl

/-- An index of the output is in point t's block iff each coordinate is in the block's range on its axis. -/
theorem mem_blk0_5 (t : Fin cfg0.N) (i : S8192x8192.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v9).slice (win0_5.rect t)).set ↔ _
  rw [View.set_slice_whole, Rect.mem_set_unit]
  exact Iff.rfl

end Region0

open Region0

variable (V : (c : Dev nD) → (b : Ref sig .tc) → Buf (Elt Ideal) ((c : Thread nD τ).loc b))

/-- After region 0 its output array (window 5, `main_v9`) is the gated hidden layer of the arrays it was entered with:
    every point writes back its block of it, and entry (r, n) lies in the block of the point with row block r / 512
    and column block n / 512. -/
theorem arr0_5 (c : Dev nD) : (dat0 (F := Ideal) V c).arrAt 5 cfg0.N = gatedOf V c :=
  (dat0 (F := Ideal) V c).arrAt_eq_of_cover 5 (gatedOf V c) (fun t _ => flushed0_5_eq V c t) fun i => by
    have h0 : (i 0).val < 8192 := (i 0).isLt
    have h1 : (i 1).val < 8192 := (i 1).isLt
    have hN : cfg0.N = 256 := N_0
    let t : Fin cfg0.N := ⟨16 * ((i 1).val / 512) + (i 0).val / 512, by rw [hN]; omega⟩
    refine ⟨t, flush0_5 t, ?_⟩
    obtain ⟨e0, e1, -⟩ := idx_facts0 t
    have ht : t.val = 16 * ((i 1).val / 512) + (i 0).val / 512 := rfl
    rw [mem_blk0_5]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 512 ≤ (i 1).val ∧ (i 1).val < win0_5.index t (1 : Fin 2) * 512 + 512; omega

end Cert.KernelIdeal.Frame

end
-- ==== Proof.R1Pay.lean ====
/-
  Region 1's body, read as values: what each control case's stores leave in the accumulator and in the output
  buffer are the body's payloads of the blocks it loaded, and each payload is read at an index of its block over
  the extended reals.  The cleared block is zero; the accumulator's update adds to the old entry the sum over the
  512 hidden features of the hidden block times the weight block; the stored block adds the bias, divides each
  entry by the root of the mean square of its group of 128 consecutive features plus a small constant, and
  multiplies by the scale.
-/
import proofs.«112403_j59167469470253_1_alg».proof.Proof.R1
import proofs.«112403_j59167469470253_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx Idealize.ShloMosaic.Tactic
open Idealize.ShloMosaic.Pipeline (Dat Cfg Window)

/-! ## What each control case's stores leave, as the payloads of the blocks

Every load and every store of the body goes through the whole buffer, so the pieces the run found read back as the
payloads themselves. -/

section pieces
variable {F : FTy → Type} [FloatOps F]

/-- The zero offsets of a whole-buffer access. -/
theorem hz2 : (![0, 0] : Fin 2 → Nat) = fun _ => 0 := funext fun a => by fin_cases a <;> rfl

/-- At an inner hidden block the accumulator is left at the old accumulator plus the partial product. -/
theorem sout1_B_0_eq (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .bf16) (x1 : Vec F S512x1024 .bf16) (x2 : Vec F S1x1024 .f32) (x3 : Vec F S1x1024 .f32) (xs0 : Vec F S1024x1024 .f32) :
    sout1_B_0 (F := F) c i arg3 harg3 arg4 harg4 arg5 harg5 arg6 harg6 arg7 harg7 arg8 harg8 hc0 hc1 x0 x1 x2 x3 xs0 = k1_pay2 xs0 x0 x1 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero hz2]
  simp only [View.readAt_eq_ld, harg8.read_unread, harg3.read_unread, harg4.read_unread, harg5.read_unread, harg6.read_unread,
    View.readCov_unit_zero (S := S1024x1024) _ hz2,
    View.ld_unit_zero (S := S1024x1024) hz2, View.ld_unit_zero (S := S1024x512) hz2, View.ld_unit_zero (S := S512x1024) hz2, View.ld_unit_zero (S := S1x1024) hz2]

/-- At the last hidden block the accumulator is left the same way, -/
theorem sout1_C_0_eq (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) :
    sout1_C_0 (F := F) c i arg3 harg3 arg4 harg4 arg5 harg5 arg6 harg6 arg7 harg7 arg8 harg8 hc0 hc1 x0 x1 x2 x3 xs0 = k1_pay2 xs0 x0 x1 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz2]
  simp only [View.readAt_eq_ld, harg8.read_unread, harg3.read_unread, harg4.read_unread, harg5.read_unread, harg6.read_unread,
    View.readCov_unit_zero (S := S1024x1024) _ hz2,
    View.ld_unit_zero (S := S1024x1024) hz2, View.ld_unit_zero (S := S1024x512) hz2, View.ld_unit_zero (S := S512x1024) hz2, View.ld_unit_zero (S := S1x1024) hz2]

/-- and the output buffer holds the normalisation of that accumulator, read back after its store. -/
theorem out1_C_4_eq (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .bf16) (x1 : Vec F S512x1024 .bf16) (x2 : Vec F S1x1024 .f32) (x3 : Vec F S1x1024 .f32) (xs0 : Vec F S1024x1024 .f32) :
    out1_C_4 (F := F) c i arg3 harg3 arg4 harg4 arg5 harg5 arg6 harg6 arg7 harg7 arg8 harg8 hc0 hc1 x0 x1 x2 x3 xs0 = k1_pay3 (k1_pay2 xs0 x0 x1) x2 x3 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz2]
  simp only [View.readAt_eq_ld, harg8.read_unread, harg3.read_unread, harg4.read_unread, harg5.read_unread, harg6.read_unread,
    View.readCov_unit_zero (S := S1024x1024) _ hz2,
    View.ld_unit_zero (S := S1024x1024) hz2, View.ld_unit_zero (S := S1024x512) hz2, View.ld_unit_zero (S := S512x1024) hz2, View.ld_unit_zero (S := S1x1024) hz2]

/-- At the first hidden block the accumulator is cleared, read back, and left at zero plus the partial product. -/
theorem sout1_A_0_eq (c : Dev nD) (i : grid1.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .bf16) (x1 : Vec F S512x1024 .bf16) (x2 : Vec F S1x1024 .f32) (x3 : Vec F S1x1024 .f32) :
    sout1_A_0 (F := F) c i arg3 harg3 arg4 harg4 arg5 harg5 arg6 harg6 arg7 harg7 arg8 harg8 hc0 hc1 x0 x1 x2 x3 = k1_pay2 k1_pay1 x0 x1 := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hz2, View.readCov_unit_zero (S := S1024x1024) _ hz2]
  simp only [View.readAt_eq_ld, harg8.read_unread, harg3.read_unread, harg4.read_unread, harg5.read_unread, harg6.read_unread,
    View.readCov_unit_zero (S := S1024x1024) _ hz2,
    View.ld_unit_zero (S := S1024x1024) hz2, View.ld_unit_zero (S := S1024x512) hz2, View.ld_unit_zero (S := S512x1024) hz2, View.ld_unit_zero (S := S1x1024) hz2]
end pieces

/-! ## The payloads read at an index, over the extended reals -/

section payloads

/-- The cleared block is zero everywhere. -/
theorem pay1_apply (j : S1024x1024.Idx) : k1_pay1 (F := Ideal) j = 0 := by
  unfold k1_pay1
  rw [shapeCast_self]
  exact Ideal.ofBits_zero_f32

/-! The product of a 1024 x 512 block and a 512 x 1024 block contracts the first one's second axis against the
second one's first axis. -/

theorem lhs_dot1_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot1_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot1_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot1_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product block at `(p, q)` is the sum over the 512 hidden features `n` of the block of `x (p, n) * w (n, q)`. -/
theorem matmul1_apply (x : FVec Ideal S1024x512 .bf16) (w : FVec Ideal S512x1024 .bf16) (p q : Fin 1024) :
    FloatOps.matmul dot_S1024x512_S512x1024_S1024x1024_1_0_0_1_n_n none x w (constant S1024x1024 .f32 0x00000000#32) (ix2 p q)
      = ∑ n : Fin 512, x (ix2 p n) * w (ix2 n q) := by
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_dot1_0 _ _
    | ⟨1, _⟩ => exact (lhs_dot1_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_dot1_0 _ _).trans hk
    | ⟨1, _⟩ => exact rhs_dot1_1 _ _)
  rw [el, er]

/-- The accumulator's update at `(p, q)`: the old entry plus the partial product. -/
theorem pay2_apply (acc : Vec Ideal S1024x1024 .f32) (x : Vec Ideal S1024x512 .bf16) (w : Vec Ideal S512x1024 .bf16) (p q : Fin 1024) :
    k1_pay2 acc x w (ix2 p q) = acc (ix2 p q) + ∑ n : Fin 512, x (ix2 p n) * w (ix2 n q) := by
  unfold k1_pay2
  rw [shapeCast_self, shapeCast_self, shapeCast_self]
  exact congrArg (acc (ix2 p q) + ·) (matmul1_apply x w p q)

end payloads

section payload3

/-- Feature `l` of the group of 128 consecutive features of a 1024-wide block that holds feature `q`. -/
def grpLane (q : Fin 1024) (l : Fin 128) : Fin 1024 := ⟨128 * (q.val / 128) + l.val, by omega⟩

/-- A row broadcast down the block reads its row at every block row. -/
theorem bcastRow_apply (v : FVec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The block viewed by groups: group `g`, lane `l` of row `p` is feature `128 g + l`. -/
theorem split_apply (v : FVec Ideal S1024x1024 .f32) (p : Fin 1024) (g : Fin 8) (l : Fin 128) :
    shapeCast S1024x8x128 v shapeCasts_S1024x1024_S1024x8x128 (ix3 p g l) = v (ix2 p (⟨128 * g.val + l.val, by omega⟩ : Fin 1024)) :=
  shapeCast_apply v shapeCasts_S1024x1024_S1024x8x128 (ix3 p g l) (ix2 p (⟨128 * g.val + l.val, by omega⟩ : Fin 1024))
    (by rewrite [Shape.rowMajor_val_two, Shape.rowMajor_val_three]
        show p.val * 1024 + (128 * g.val + l.val) = (p.val * 8 + g.val) * 128 + l.val
        omega)

/-- The groups viewed as a block again: feature `q` is lane `q % 128` of group `q / 128`. -/
theorem merge_apply (v : FVec Ideal S1024x8x128 .f32) (p q : Fin 1024) :
    shapeCast S1024x1024 v shapeCasts_S1024x8x128_S1024x1024 (ix2 p q)
      = v (ix3 p (⟨q.val / 128, by omega⟩ : Fin 8) (⟨q.val % 128, by omega⟩ : Fin 128)) :=
  shapeCast_apply v shapeCasts_S1024x8x128_S1024x1024 (ix2 p q) (ix3 p (⟨q.val / 128, by omega⟩ : Fin 8) (⟨q.val % 128, by omega⟩ : Fin 128))
    (by rewrite [Shape.rowMajor_val_two, Shape.rowMajor_val_three]
        show (p.val * 8 + q.val / 128) * 128 + q.val % 128 = p.val * 1024 + q.val
        omega)

/-- A per-group value with a trailing unit axis reads the per-group value. -/
theorem keep_apply (v : FVec Ideal S1024x8 .f32) (p : Fin 1024) (g : Fin 8) (z : Fin 1) :
    shapeCast S1024x8x1 v shapeCasts_S1024x8_S1024x8x1 (ix3 p g z) = v (ix2 p g) :=
  shapeCast_apply v shapeCasts_S1024x8_S1024x8x1 (ix3 p g z) (ix2 p g)
    (by rewrite [Shape.rowMajor_val_two, Shape.rowMajor_val_three]
        show p.val * 8 + g.val = (p.val * 8 + g.val) * 1 + z.val
        omega)

/-- A per-group value broadcast along the lanes reads the group's value at every lane. -/
theorem bcastLane_apply (v : FVec Ideal S1024x8x1 .f32) (p : Fin 1024) (g : Fin 8) (l : Fin 128) :
    broadcastTo S1024x8x128 v broadcasts_S1024x8x1_S1024x8x128 (ix3 p g l) = v (ix3 p g (0 : Fin 1)) :=
  broadcastTo_apply v broadcasts_S1024x8x1_S1024x8x128 (ix3 p g l) (ix3 p g (0 : Fin 1)) (fun a => match a with
    | ⟨0, _⟩ => by show p.val = if (1024 : Nat) = 1 then 0 else p.val; rw [if_neg (by decide)]
    | ⟨1, _⟩ => by show g.val = if (8 : Nat) = 1 then 0 else g.val; rw [if_neg (by decide)]
    | ⟨2, _⟩ => by show (0 : Nat) = if (1 : Nat) = 1 then 0 else l.val; rw [if_pos rfl])

/-- The sum along the lanes of group `g` in row `p`. -/
theorem laneSum_apply (v : FVec Ideal S1024x8x128 .f32) (hφ : FKind.Formats .f32) (hacc : (0x00000000#32 : BitVec 32) = 0x00000000#32)
    (p : Fin 1024) (g : Fin 8) :
    multiReduction .add [2] S1024x8 v 0x00000000#32 reduces_S1024x8x128_S1024x8 hφ hacc (ix2 p g) = ∑ l : Fin 128, v (ix3 p g l) := by
  refine (Ideal.multiReduction_add_single v 0x00000000#32 reduces_S1024x8x128_S1024x8 hφ hacc (ix2 p g)).trans ?_
  refine Finset.sum_congr rfl fun l _ => ?_
  exact congrArg v (funext fun a => Fin.ext (by match a with | ⟨0, _⟩ => rfl | ⟨1, _⟩ => rfl | ⟨2, _⟩ => rfl))

end payload3

section payload3b

/-- The stored block at `(p, q)`: with `y = acc + bias`, the entry `y (p, q)` over the root of the mean square of
    its group of 128 features plus the small constant, times the scale at `q`. -/
theorem pay3_apply (acc : FVec Ideal S1024x1024 .f32) (b g : FVec Ideal S1x1024 .f32) (p q : Fin 1024) :
    k1_pay3 (F := Ideal) acc b g (ix2 p q)
      = Ideal.div (acc (ix2 p q) + b (ix2 (0 : Fin 1) q))
          (Ideal.sqrt (Ideal.div (∑ l : Fin 128, (acc (ix2 p (grpLane q l)) + b (ix2 (0 : Fin 1) (grpLane q l)))
              * (acc (ix2 p (grpLane q l)) + b (ix2 (0 : Fin 1) (grpLane q l)))) Cert.Spec.c128 + Cert.Spec.ceps))
        * g (ix2 (0 : Fin 1) q) := by
  unfold k1_pay3
  rw [shapeCast_self, shapeCast_self]
  -- the sum of the block and the broadcast bias, at a feature of row p
  have hy : ∀ q' : Fin 1024, addf acc (broadcastTo S1024x1024 b broadcasts_S1x1024_S1024x1024) (ix2 p q')
      = acc (ix2 p q') + b (ix2 (0 : Fin 1) q') := fun q' =>
    congrArg (acc (ix2 p q') + ·) (bcastRow_apply b p q')
  have hq : (⟨128 * (q.val / 128) + q.val % 128, by omega⟩ : Fin 1024) = q := Fin.ext (by show 128 * (q.val / 128) + q.val % 128 = q.val; omega)
  refine congrArg₂ (· * ·) ?_ (bcastRow_apply g p q)
  refine (merge_apply _ p q).trans ?_
  refine congrArg₂ Ideal.div ?_ ?_
  · refine (split_apply _ p _ _).trans ?_
    rw [hq]
    exact hy q
  · refine (bcastLane_apply _ p _ _).trans ?_
    refine congrArg Ideal.sqrt ?_
    refine congrArg (· + Cert.Spec.ceps) ?_
    refine congrArg (Ideal.div · Cert.Spec.c128) ?_
    refine (keep_apply _ p _ _).trans ?_
    refine (laneSum_apply _ _ _ p _).trans ?_
    refine Finset.sum_congr rfl fun l _ => ?_
    have e : shapeCast S1024x8x128 (addf acc (broadcastTo S1024x1024 b broadcasts_S1x1024_S1024x1024)) shapeCasts_S1024x1024_S1024x8x128
        (ix3 p (⟨q.val / 128, by omega⟩ : Fin 8) l) = acc (ix2 p (grpLane q l)) + b (ix2 (0 : Fin 1) (grpLane q l)) :=
      (split_apply _ p _ l).trans (hy (grpLane q l))
    exact congrArg₂ (· * ·) e e

end payload3b

end Cert.KernelIdeal.Frame

end
-- ==== Proof.R1Acc.lean ====
/-
  Region 1 at the ideal instance: the accumulator after each point is the partial sum over the hidden blocks so far, and the block stored at the last hidden block is the specification's block.

  The grid point `n` is (row block `n / 64`, column block `n / 16 % 4`, hidden block `n % 16`).  For the output entry
  `(r, o)` the contraction's term at hidden feature `j` is `hidden (r, j) * weights (j, o)`.  By induction on the point
  the accumulator's entry `(p, q)` after point `n` is the sum of the first `512 (n % 16 + 1)` terms for row
  `1024 (n / 64) + p` and output feature `1024 (n / 16 % 4) + q`: the first hidden block starts from the cleared
  block, and a later one adds its 512 terms to what the point before, in the same row and column block, left.  At the
  last hidden block all 8192 terms are there; the stored block adds the bias, and the group of 128 consecutive
  features of output feature `1024 o + q` is the group of `q` inside the block shifted by `1024 o`, so the stored
  block is the block of the normalised output layer.
-/
import proofs.«112403_j59167469470253_1_alg».proof.Proof.ValueDefs
import proofs.«112403_j59167469470253_1_alg».proof.Proof.R1Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-! ## The grid's index maps and the blocks read at an index

Point `n` of the grid is (row block `n / 64`, column block `n / 16 % 4`, hidden block `n % 16`); a block's entry
sits in its array at block index times block size plus the coordinate inside the block. -/

variable (V : (c : Dev nD) → (b : Ref sig .tc) → Buf (Elt Ideal) ((c : Thread nD τ).loc b))

/-- The printed index maps of the five windows, decided over the grid. -/
theorem idx_facts1 : ∀ t : Fin cfg1.N,
    win1_0.index t (0 : Fin 2) = t.val / 64 % 8 ∧ win1_0.index t (1 : Fin 2) = t.val % 16
    ∧ win1_1.index t (0 : Fin 2) = t.val % 16 ∧ win1_1.index t (1 : Fin 2) = t.val / 16 % 4
    ∧ win1_2.index t (0 : Fin 2) = 0 ∧ win1_2.index t (1 : Fin 2) = t.val / 16 % 4
    ∧ win1_3.index t (0 : Fin 2) = 0 ∧ win1_3.index t (1 : Fin 2) = t.val / 16 % 4
    ∧ win1_4.index t (0 : Fin 2) = t.val / 64 % 8 ∧ win1_4.index t (1 : Fin 2) = t.val / 16 % 4 :=
  (by decide +kernel : ∀ t : Fin grid1.N, _)

/-- The row of the arrays that row `p` of point `n`'s blocks is. -/
def rowAt (n : ℕ) (p : Fin 1024) : Fin 8192 := ⟨1024 * (n / 64 % 8) + p.val, by omega⟩
/-- The output feature that column `q` of point `n`'s blocks is. -/
def colAt (n : ℕ) (q : Fin 1024) : Fin 4096 := ⟨1024 * (n / 16 % 4) + q.val, by omega⟩
/-- The hidden feature that hidden coordinate `j` of point `n`'s blocks is. -/
def hidAt (n : ℕ) (j : Fin 512) : Fin 8192 := ⟨512 * (n % 16) + j.val, by omega⟩

/-- The four arrays the region reads, as matrices of extended reals: the hidden layer, the weights, the bias row
    and the scale row. -/
abbrev hidArr (c : Dev nD) : Cert.Spec.Mat 8192 8192 := V c main_v9
abbrev wtsArr (c : Dev nD) : Cert.Spec.Mat 8192 4096 := V c main_v4
abbrev biasArr (c : Dev nD) : Cert.Spec.Mat 1 4096 := V c main_v7
abbrev gamArr (c : Dev nD) : Cert.Spec.Mat 1 4096 := V c main_v8
/-- Their blocks at a point. -/
abbrev xblk (c : Dev nD) (t : Fin cfg1.N) : FVec Ideal S1024x512 .bf16 := iblk1 V c 0 t
abbrev wblk (c : Dev nD) (t : Fin cfg1.N) : FVec Ideal S512x1024 .bf16 := iblk1 V c 1 t
abbrev bblk (c : Dev nD) (t : Fin cfg1.N) : FVec Ideal S1x1024 .f32 := iblk1 V c 2 t
abbrev gblk (c : Dev nD) (t : Fin cfg1.N) : FVec Ideal S1x1024 .f32 := iblk1 V c 3 t

/-- The hidden layer's block. -/
theorem xblk_apply (c : Dev nD) (t : Fin cfg1.N) (p : Fin 1024) (j : Fin 512) :
    xblk V c t (ix2 p j) = hidArr V c (ix2 (rowAt t.val p) (hidAt t.val j)) := by
  obtain ⟨e0, e1, -⟩ := idx_facts1 t
  show V c main_v9 (((cfg1.win 0).blk t).view.emb (ix2 p j)) = V c main_v9 _
  refine congrArg (V c main_v9) (funext fun a => Fin.ext ?_)
  match a with
  | ⟨0, _⟩ => show win1_0.index t (0 : Fin 2) * 1024 + 1 * p.val = 1024 * (t.val / 64 % 8) + p.val; rw [e0]; omega
  | ⟨1, _⟩ => show win1_0.index t (1 : Fin 2) * 512 + 1 * j.val = 512 * (t.val % 16) + j.val; rw [e1]; omega

/-- The weights' block. -/
theorem wblk_apply (c : Dev nD) (t : Fin cfg1.N) (j : Fin 512) (q : Fin 1024) :
    wblk V c t (ix2 j q) = wtsArr V c (ix2 (hidAt t.val j) (colAt t.val q)) := by
  obtain ⟨-, -, e0, e1, -⟩ := idx_facts1 t
  show V c main_v4 (((cfg1.win 1).blk t).view.emb (ix2 j q)) = V c main_v4 _
  refine congrArg (V c main_v4) (funext fun a => Fin.ext ?_)
  match a with
  | ⟨0, _⟩ => show win1_1.index t (0 : Fin 2) * 512 + 1 * j.val = 512 * (t.val % 16) + j.val; rw [e0]; omega
  | ⟨1, _⟩ => show win1_1.index t (1 : Fin 2) * 1024 + 1 * q.val = 1024 * (t.val / 16 % 4) + q.val; rw [e1]; omega

/-- The bias row's block. -/
theorem bblk_apply (c : Dev nD) (t : Fin cfg1.N) (q : Fin 1024) :
    bblk V c t (ix2 (0 : Fin 1) q) = biasArr V c (ix2 (0 : Fin 1) (colAt t.val q)) := by
  obtain ⟨-, -, -, -, e0, e1, -⟩ := idx_facts1 t
  show V c main_v7 (((cfg1.win 2).blk t).view.emb (ix2 (0 : Fin 1) q)) = V c main_v7 _
  refine congrArg (V c main_v7) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = 1024 * (t.val / 16 % 4) + q.val; rw [e1]; omega

/-- The scale row's block. -/
theorem gblk_apply (c : Dev nD) (t : Fin cfg1.N) (q : Fin 1024) :
    gblk V c t (ix2 (0 : Fin 1) q) = gamArr V c (ix2 (0 : Fin 1) (colAt t.val q)) := by
  obtain ⟨-, -, -, -, -, -, e0, e1, -⟩ := idx_facts1 t
  show V c main_v8 (((cfg1.win 3).blk t).view.emb (ix2 (0 : Fin 1) q)) = V c main_v8 _
  refine congrArg (V c main_v8) (funext fun a => Fin.ext ?_)
  match a with
  | ⟨0, _⟩ => show win1_3.index t (0 : Fin 2) * 1 + 1 * 0 = 0; rw [e0]
  | ⟨1, _⟩ => show win1_3.index t (1 : Fin 2) * 1024 + 1 * q.val = 1024 * (t.val / 16 % 4) + q.val; rw [e1]; omega

/-- A block of the output window read off a whole-array function. -/
theorem oblk_apply (t : Fin cfg1.N) (G : Cert.Spec.Mat 8192 4096) (p q : Fin 1024) :
    (((cfg1.win 4).blk t).view.read (Elt Ideal) G : FVec Ideal S1024x1024 .f32) (ix2 p q) = G (ix2 (rowAt t.val p) (colAt t.val q)) := by
  obtain ⟨-, -, -, -, -, -, -, -, e0, e1⟩ := idx_facts1 t
  show G (((cfg1.win 4).blk t).view.emb (ix2 p q)) = _
  refine congrArg G (funext fun a => Fin.ext ?_)
  match a with
  | ⟨0, _⟩ => show win1_4.index t (0 : Fin 2) * 1024 + 1 * p.val = 1024 * (t.val / 64 % 8) + p.val; rw [e0]; omega
  | ⟨1, _⟩ => show win1_4.index t (1 : Fin 2) * 1024 + 1 * q.val = 1024 * (t.val / 16 % 4) + q.val; rw [e1]; omega

/-! ## The accumulator along the grid

For the output entry `(r, o)` the product's term at hidden feature `j` is `hidden (r, j) * weights (j, o)`.  After
point `n` the accumulator's entry `(p, q)` is the sum of the terms of the first `512 (n % 16 + 1)` hidden
features, for the row and the output feature the point's blocks put at `(p, q)`. -/

/-- The product's term at hidden feature `j` for the output entry `(r, o)`; zero past the hidden layer's width. -/
def term (c : Dev nD) (r : Fin 8192) (o : Fin 4096) (j : ℕ) : EReal :=
  if h : j < 8192 then hidArr V c (ix2 r (⟨j, h⟩ : Fin 8192)) * wtsArr V c (ix2 (⟨j, h⟩ : Fin 8192) o) else 0

/-- The partial product of the blocks of point `t` is the sum of the 512 terms of its hidden block. -/
theorem blockSum_eq (c : Dev nD) (t : Fin cfg1.N) (p q : Fin 1024) :
    ∑ j : Fin 512, xblk V c t (ix2 p j) * wblk V c t (ix2 j q)
      = ∑ x ∈ Finset.range 512, term V c (rowAt t.val p) (colAt t.val q) (512 * (t.val % 16) + x) := by
  rw [← Fin.sum_univ_eq_sum_range (fun x => term V c (rowAt t.val p) (colAt t.val q) (512 * (t.val % 16) + x)) 512]
  refine Finset.sum_congr rfl fun j _ => ?_
  have h : 512 * (t.val % 16) + j.val < 8192 := by have := j.isLt; omega
  refine (congrArg₂ (· * ·) (xblk_apply V c t p j) (wblk_apply V c t j q)).trans ?_
  unfold term
  rw [dif_pos h]
  rfl

/-- One update of the accumulator: from the sum over the hidden blocks before this point's to the sum through it. -/
theorem step_eq (c : Dev nD) (t : Fin cfg1.N) (acc : FVec Ideal S1024x1024 .f32) (p q : Fin 1024)
    (hacc : acc (ix2 p q) = ∑ j ∈ Finset.range (512 * (t.val % 16)), term V c (rowAt t.val p) (colAt t.val q) j) :
    k1_pay2 (F := Ideal) acc (xblk V c t) (wblk V c t) (ix2 p q)
      = ∑ j ∈ Finset.range (512 * (t.val % 16 + 1)), term V c (rowAt t.val p) (colAt t.val q) j := by
  refine (pay2_apply acc (xblk V c t) (wblk V c t) p q).trans ?_
  rw [show 512 * (t.val % 16 + 1) = 512 * (t.val % 16) + 512 from by omega, Finset.sum_range_add]
  exact congrArg₂ (· + ·) hacc (blockSum_eq V c t p q)

/-- At the first hidden block the accumulator is cleared first, so it is left at the first block's sum. -/
theorem acc_first (c : Dev nD) (t : Fin cfg1.N) (h0 : t.val % 16 = 0) (p q : Fin 1024) :
    ((outsAt1 V c t.val t.isLt).2 : FVec Ideal S1024x1024 .f32) (ix2 p q)
      = ∑ j ∈ Finset.range (512 * (t.val % 16 + 1)), term V c (rowAt t.val p) (colAt t.val q) j := by
  have h1 : ¬t.val % 16 = 15 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) (ix2 p q)).trans ?_
  refine step_eq V c t k1_pay1 p q ?_
  rw [pay1_apply, h0]
  rfl

/-- At a later hidden block the accumulator is entered at what the point before left. -/
theorem acc_next (c : Dev nD) (t : Fin cfg1.N) (h0 : ¬t.val % 16 = 0) (p q : Fin 1024)
    (hprev : ((outsAt1 V c (t.val - 1) (Nat.lt_of_le_of_lt (Nat.sub_le _ _) t.isLt)).2 : FVec Ideal S1024x1024 .f32) (ix2 p q)
      = ∑ j ∈ Finset.range (512 * (t.val % 16)), term V c (rowAt t.val p) (colAt t.val q) j) :
    ((outsAt1 V c t.val t.isLt).2 : FVec Ideal S1024x1024 .f32) (ix2 p q)
      = ∑ j ∈ Finset.range (512 * (t.val % 16 + 1)), term V c (rowAt t.val p) (colAt t.val q) j := by
  by_cases h1 : t.val % 16 = 15
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) (ix2 p q)).trans ?_
    exact step_eq V c t (outsAt1 V c (t.val - 1) (Nat.lt_of_le_of_lt (Nat.sub_le _ _) t.isLt)).2 p q hprev
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) (ix2 p q)).trans ?_
    exact step_eq V c t (outsAt1 V c (t.val - 1) (Nat.lt_of_le_of_lt (Nat.sub_le _ _) t.isLt)).2 p q hprev

/-- After every point the accumulator holds the sums through the point's hidden block: by induction on the point,
    the point before a later hidden block being in the same row and column block, one hidden block earlier. -/
theorem acc_eq (c : Dev nD) : ∀ (n : ℕ) (hn : n < cfg1.N) (p q : Fin 1024),
    ((outsAt1 V c n hn).2 : FVec Ideal S1024x1024 .f32) (ix2 p q)
      = ∑ j ∈ Finset.range (512 * (n % 16 + 1)), term V c (rowAt n p) (colAt n q) j := by
  intro n
  induction n using Nat.strong_induction_on with
  | _ n ih =>
    intro hn p q
    by_cases h0 : n % 16 = 0
    · exact acc_first V c ⟨n, hn⟩ h0 p q
    · have hih := ih (n - 1) (by omega) (Nat.lt_of_le_of_lt (Nat.sub_le _ _) hn) p q
      have e1 : (n - 1) % 16 + 1 = n % 16 := by omega
      have er : rowAt (n - 1) p = rowAt n p :=
        Fin.ext (by show 1024 * ((n - 1) / 64 % 8) + p.val = 1024 * (n / 64 % 8) + p.val; omega)
      have ec : colAt (n - 1) q = colAt n q :=
        Fin.ext (by show 1024 * ((n - 1) / 16 % 4) + q.val = 1024 * (n / 16 % 4) + q.val; omega)
      rw [e1, er, ec] at hih
      exact acc_next V c ⟨n, hn⟩ h0 p q hih

/-- All 8192 terms are the whole contraction. -/
theorem full_sum (c : Dev nD) (r : Fin 8192) (o : Fin 4096) :
    ∑ j ∈ Finset.range 8192, term V c r o j = ∑ d : Fin 8192, hidArr V c (ix2 r d) * wtsArr V c (ix2 d o) := by
  rw [Finset.sum_range]
  refine Finset.sum_congr rfl fun d _ => ?_
  unfold term
  rw [dif_pos d.isLt]

/-- The affine output layer before the normalisation. -/
abbrev linOf (c : Dev nD) : Cert.Spec.Mat 8192 4096 :=
  Cert.Spec.lin (V c main_v9) (V c main_v4) (rowVec (V c main_v7))

/-- At the last hidden block the accumulator plus the bias block is the affine output layer's block. -/
theorem lin_last (c : Dev nD) (t : Fin cfg1.N) (h : t.val % 16 = 15) (p q : Fin 1024) :
    k1_pay2 (F := Ideal) (outsAt1 V c (t.val - 1) (Nat.lt_of_le_of_lt (Nat.sub_le _ _) t.isLt)).2 (xblk V c t) (wblk V c t) (ix2 p q) + bblk V c t (ix2 (0 : Fin 1) q)
      = linOf V c (ix2 (rowAt t.val p) (colAt t.val q)) := by
  have h0 : ¬t.val % 16 = 0 := by omega
  have hih := acc_eq V c (t.val - 1) (Nat.lt_of_le_of_lt (Nat.sub_le _ _) t.isLt) p q
  have e1 : (t.val - 1) % 16 + 1 = t.val % 16 := by omega
  have er : rowAt (t.val - 1) p = rowAt t.val p :=
    Fin.ext (by show 1024 * ((t.val - 1) / 64 % 8) + p.val = 1024 * (t.val / 64 % 8) + p.val; omega)
  have ec : colAt (t.val - 1) q = colAt t.val q :=
    Fin.ext (by show 1024 * ((t.val - 1) / 16 % 4) + q.val = 1024 * (t.val / 16 % 4) + q.val; omega)
  rw [e1, er, ec] at hih
  have hs := step_eq V c t (outsAt1 V c (t.val - 1) (Nat.lt_of_le_of_lt (Nat.sub_le _ _) t.isLt)).2 p q hih
  rw [show 512 * (t.val % 16 + 1) = 8192 from by omega, full_sum] at hs
  exact congrArg₂ (· + ·) hs (bblk_apply V c t q)

/-- The group of 128 features of an output feature of column block `n / 16 % 4` lies inside the block. -/
theorem grpCol_colAt (n : ℕ) (q : Fin 1024) (l : Fin 128) : Cert.Spec.grpCol (colAt n q) l = colAt n (grpLane q l) :=
  Fin.ext (by
    show 128 * ((1024 * (n / 16 % 4) + q.val) / 128) + l.val = 1024 * (n / 16 % 4) + (128 * (q.val / 128) + l.val)
    omega)

/-- The block the last hidden block stores is the block of the normalised output layer. -/
theorem out_last (c : Dev nD) (t : Fin cfg1.N) (h : t.val % 16 = 15) :
    (k1_pay3 (F := Ideal) (k1_pay2 (F := Ideal) (outsAt1 V c (t.val - 1) (Nat.lt_of_le_of_lt (Nat.sub_le _ _) t.isLt)).2 (xblk V c t) (wblk V c t)) (bblk V c t) (gblk V c t) : FVec Ideal S1024x1024 .f32)
      = (((cfg1.win 4).blk t).view.read (Elt Ideal) (normOf V c) : FVec Ideal S1024x1024 .f32) := by
  funext j
  obtain ⟨p, q, rfl⟩ : ∃ (p q : Fin 1024), j = ix2 p q := ⟨j 0, j 1, eq_ix2 j⟩
  refine (pay3_apply (k1_pay2 (F := Ideal) (outsAt1 V c (t.val - 1) (Nat.lt_of_le_of_lt (Nat.sub_le _ _) t.isLt)).2 (xblk V c t) (wblk V c t)) (bblk V c t) (gblk V c t) p q).trans ?_
  refine Eq.trans ?_ (oblk_apply t (normOf V c) p q).symm
  show _ = Ideal.div (linOf V c (ix2 (rowAt t.val p) (colAt t.val q)))
      (Ideal.sqrt (Ideal.div (∑ l : Fin 128, linOf V c (ix2 (rowAt t.val p) (Cert.Spec.grpCol (colAt t.val q) l))
        * linOf V c (ix2 (rowAt t.val p) (Cert.Spec.grpCol (colAt t.val q) l))) Cert.Spec.c128 + Cert.Spec.ceps))
    * gamArr V c (ix2 (0 : Fin 1) (colAt t.val q))
  refine congrArg₂ (· * ·) (congrArg₂ Ideal.div (lin_last V c t h p q) (congrArg Ideal.sqrt (congrArg (· + Cert.Spec.ceps)
    (congrArg (Ideal.div · Cert.Spec.c128) (Finset.sum_congr rfl fun l _ => ?_))))) (gblk_apply V c t q)
  rw [grpCol_colAt]
  exact congrArg₂ (· * ·) (lin_last V c t h p (grpLane q l)) (lin_last V c t h p (grpLane q l))

/-- At a point of the last hidden block (k = 15) what the body leaves in the output buffer is that point's block of
    the normalised output layer. -/
theorem after1_4_last (c : Dev nD) (t : Fin cfg1.N) (h : t.val % 16 = 15) :
    (dat1 (F := Ideal) V c).after 4 t = ((cfg1.win 4).blk t).view.read (Elt Ideal) (normOf V c) := by
  have h0 : ¬t.val % 16 = 0 := by omega
  rw [after1_4, outsAt1_C V c t h0 h]
  dsimp only
  exact (out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h' => h0 ((hcond1_0 t).mp h')) ((hcond1_1 t).mpr h) (iblk1 V c 0 t) (iblk1 V c 1 t) (iblk1 V c 2 t) (iblk1 V c 3 t) (outsAt1 V c (t.val - 1) (Nat.lt_of_le_of_lt (Nat.sub_le _ _) t.isLt)).2).trans (out_last V c t h)

end Cert.KernelIdeal.Frame

end
-- ==== Proof.R1Value.lean ====
/-
  Region 1 at the ideal instance: after the region its output array holds the normalised output layer.

  The output array is cut into blocks of 1024 x 1024, one per pair (row block i, column block o); the block (i, o) is
  written back once, at the last hidden block k = 15 of that pair, and what is written there is that block of the
  normalised output layer. The 8 x 4 blocks tile the 8192 x 4096 array, so the array ends as the whole layer.
-/
import proofs.«112403_j59167469470253_1_alg».proof.Proof.R1Acc
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The output window's block index at the grid point t = (i * 4 + o) * 16 + k is (i, o) = (t / 64, t / 16 mod 4). -/
theorem index1_4 : ∀ t : Fin cfg1.N, win1_4.index t (0 : Fin 2) = t.val / 64 ∧ win1_4.index t (1 : Fin 2) = t.val / 16 % 4 :=
  (by decide +kernel : ∀ t : Fin grid1.N, win1_4.index t (0 : Fin 2) = t.val / 64 ∧ win1_4.index t (1 : Fin 2) = t.val / 16 % 4)

/-- What a point of the last hidden block writes back is its block of the normalised output layer: the window's
    blocks are never cut at the array's end, so the write-back moves the whole buffer. -/
theorem flushed1_4_eq (c : Dev nD) (t : Fin cfg1.N) (hf : (cfg1.win 4).flush t = true) :
    (dat1 (F := Ideal) V c).flushed 4 t = ((cfg1.win 4).blk t).view.read (Elt Ideal) (normOf V c) := by
  show (cfg1.win 4).cut (grid1.coords t) ((dat1 (F := Ideal) V c).after 4 t) = _
  rw [after1_4_last V c t ((flush1_4 t).mp hf)]

/-- An entry (r, f) of the array lies in the block of point t iff on each axis its coordinate is within the block's
    1024 consecutive positions starting at 1024 times the block index. -/
theorem mem_blk1_4 (t : Fin cfg1.N) (i : S8192x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v10).slice (win1_4.rect t)).set ↔ _
  rw [View.set_slice_whole, Rect.mem_set_unit]
  exact Iff.rfl

/-- Every entry (r, f) is written back by the point with i = r / 1024, o = f / 1024 and k = 15. -/
theorem cover1_4 (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 512 := N_1
  have hlt : ((i 0).val / 1024 * 4 + (i 1).val / 1024) * 16 + 15 < cfg1.N := by rw [hN]; omega
  obtain ⟨e0, e1⟩ := index1_4 ⟨((i 0).val / 1024 * 4 + (i 1).val / 1024) * 16 + 15, hlt⟩
  have e0' : win1_4.index ⟨((i 0).val / 1024 * 4 + (i 1).val / 1024) * 16 + 15, hlt⟩ (0 : Fin 2) = (i 0).val / 1024 := by
    rw [e0]; show (((i 0).val / 1024 * 4 + (i 1).val / 1024) * 16 + 15) / 64 = _; omega
  have e1' : win1_4.index ⟨((i 0).val / 1024 * 4 + (i 1).val / 1024) * 16 + 15, hlt⟩ (1 : Fin 2) = (i 1).val / 1024 := by
    rw [e1]; show (((i 0).val / 1024 * 4 + (i 1).val / 1024) * 16 + 15) / 16 % 4 = _; omega
  refine ⟨⟨((i 0).val / 1024 * 4 + (i 1).val / 1024) * 16 + 15, hlt⟩, (flush1_4 _).mpr ?_, ?_⟩
  · show (((i 0).val / 1024 * 4 + (i 1).val / 1024) * 16 + 15) % 16 = 15
    omega
  · rw [mem_blk1_4]
    intro a
    match a with
    | ⟨0, _⟩ =>
      show win1_4.index ⟨((i 0).val / 1024 * 4 + (i 1).val / 1024) * 16 + 15, hlt⟩ (0 : Fin 2) * 1024 ≤ (i 0).val
        ∧ (i 0).val < win1_4.index ⟨((i 0).val / 1024 * 4 + (i 1).val / 1024) * 16 + 15, hlt⟩ (0 : Fin 2) * 1024 + 1024
      rw [e0']; omega
    | ⟨1, _⟩ =>
      show win1_4.index ⟨((i 0).val / 1024 * 4 + (i 1).val / 1024) * 16 + 15, hlt⟩ (1 : Fin 2) * 1024 ≤ (i 1).val
        ∧ (i 1).val < win1_4.index ⟨((i 0).val / 1024 * 4 + (i 1).val / 1024) * 16 + 15, hlt⟩ (1 : Fin 2) * 1024 + 1024
      rw [e1']; omega

/-- After region 1 its output array (window 4, `main_v10`) is the normalised output layer of the arrays it was entered with. -/
theorem arr1_4 (c : Dev nD) : (dat1 (F := Ideal) V c).arrAt 4 cfg1.N = normOf V c :=
  (dat1 (F := Ideal) V c).arrAt_eq_of_cover 4 (normOf V c) (fun t hf => flushed1_4_eq V c t hf) cover1_4

end Cert.KernelIdeal.Frame

end
-- ==== Proof.Glue.lean ====
/-
  The kernel program's result as the specification of its arguments, at the ideal instance.
  The host operations before the regions only re-lay the arguments (the input as rows, the biases and gamma as
  one-row matrices) and change formats, which is the identity on extended reals; region 0 leaves the gated hidden
  layer of those, region 1 the normalised output layer of the hidden layer, and the closing reshape reads row
  2048 * a + b as (a, b).
-/
import proofs.«112403_j59167469470253_1_alg».proof.Proof.Run
import proofs.«112403_j59167469470253_1_alg».proof.Proof.R0Value
import proofs.«112403_j59167469470253_1_alg».proof.Proof.R1Value
import Idealize.ShloMosaic.Lib.StableHlo.Run
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx Idealize.ShloMosaic.StableHlo
open Idealize.ShloMosaic.Pipeline (Dat Cfg Window)

/-! ## The re-layings read at an index -/

/-- The input cast to rows: row `r` is the (batch, position) pair (r / 2048, r mod 2048). -/
theorem rows_cast (z : (⟨3, ![4, 2048, 4096]⟩ : Shape).Idx → EReal) (h : (⟨3, ![4, 2048, 4096]⟩ : Shape).ShapeCasts ⟨2, ![8192, 4096]⟩) :
    shapeCast (⟨2, ![8192, 4096]⟩ : Shape) z h = Cert.Spec.rows z := by
  funext j
  refine shapeCast_apply z h j (ix3 (Cert.Spec.rowB (j 0)) (Cert.Spec.rowS (j 0)) (j 1)) ?_
  rw [Shape.rowMajor_val_three, Shape.rowMajor_val_two]
  show ((j 0).val / 2048 * 2048 + (j 0).val % 2048) * 4096 + (j 1).val = (j 0).val * 4096 + (j 1).val
  have := Nat.div_add_mod' (j 0).val 2048
  omega

/-- A vector cast to a one-row matrix, read back as a vector, is the vector. -/
theorem rowVec_cast {n : Nat} (x : (⟨1, ![n]⟩ : Shape).Idx → EReal) (h : (⟨1, ![n]⟩ : Shape).ShapeCasts ⟨2, ![1, n]⟩) :
    rowVec (shapeCast (⟨2, ![1, n]⟩ : Shape) x h) = x := by
  funext j
  unfold rowVec
  refine shapeCast_apply x h (ix2 (0 : Fin 1) (j 0)) j ?_
  rw [Shape.rowMajor_val_one, Shape.rowMajor_val_two]
  show (j 0).val = 0 * n + (j 0).val
  omega

/-- Rows cast back to (batch, position) pairs: the pair (a, b) reads row 2048 * a + b. -/
theorem unrows_cast (y : (⟨2, ![8192, 4096]⟩ : Shape).Idx → EReal) (h : (⟨2, ![8192, 4096]⟩ : Shape).ShapeCasts ⟨3, ![4, 2048, 4096]⟩)
    (a : Fin 4) (b : Fin 2048) (o : Fin 4096) :
    shapeCast (⟨3, ![4, 2048, 4096]⟩ : Shape) y h (ix3 a b o) = y (ix2 (Cert.Spec.rowOf a b) o) := by
  refine shapeCast_apply y h (ix3 a b o) (ix2 (Cert.Spec.rowOf a b) o) ?_
  rw [Shape.rowMajor_val_three, Shape.rowMajor_val_two]
  show (2048 * a.val + b.val) * 4096 + o.val = (a.val * 2048 + b.val) * 4096 + o.val
  omega

variable (m : (ℓ : Loc nD τ sig) → Buf (Elt Ideal) ℓ)

/-! ## What the host operations before the regions leave -/

theorem V1_v1 (c : Dev nD) : V1 m c main_v1 = Cert.Spec.rows (m ((c : Thread nD τ).loc main_arg0)) := by
  show StableHlo.after hostOps0 (W0 m c) (Proc.devRef .tc main_v1) = _
  after_results
  exact rows_cast _ _
theorem V1_v2 (c : Dev nD) : V1 m c main_v2 = (m ((c : Thread nD τ).loc main_arg1)) := by
  show StableHlo.after hostOps0 (W0 m c) (Proc.devRef .tc main_v2) = _
  after_results
  rfl
theorem V1_v3 (c : Dev nD) : V1 m c main_v3 = (m ((c : Thread nD τ).loc main_arg3)) := by
  show StableHlo.after hostOps0 (W0 m c) (Proc.devRef .tc main_v3) = _
  after_results
  rfl
theorem V1_v4 (c : Dev nD) : V1 m c main_v4 = (m ((c : Thread nD τ).loc main_arg5)) := by
  show StableHlo.after hostOps0 (W0 m c) (Proc.devRef .tc main_v4) = _
  after_results
  rfl
theorem V1_v5 (c : Dev nD) : rowVec (V1 m c main_v5) = (m ((c : Thread nD τ).loc main_arg2)) := by
  show rowVec (StableHlo.after hostOps0 (W0 m c) (Proc.devRef .tc main_v5)) = _
  after_results
  exact rowVec_cast _ _
theorem V1_v6 (c : Dev nD) : rowVec (V1 m c main_v6) = (m ((c : Thread nD τ).loc main_arg4)) := by
  show rowVec (StableHlo.after hostOps0 (W0 m c) (Proc.devRef .tc main_v6)) = _
  after_results
  exact rowVec_cast _ _
theorem V1_v7 (c : Dev nD) : rowVec (V1 m c main_v7) = (m ((c : Thread nD τ).loc main_arg6)) := by
  show rowVec (StableHlo.after hostOps0 (W0 m c) (Proc.devRef .tc main_v7)) = _
  after_results
  exact rowVec_cast _ _
theorem V1_v8 (c : Dev nD) : rowVec (V1 m c main_v8) = (m ((c : Thread nD τ).loc main_arg7)) := by
  show rowVec (StableHlo.after hostOps0 (W0 m c) (Proc.devRef .tc main_v8)) = _
  after_results
  exact rowVec_cast _ _

/-! ## Through the two regions -/

/-- Region 0 leaves the gated hidden layer of the arguments in its output array. -/
theorem V2_v9 (c : Dev nD) :
    V2 m c main_v9 = Cert.Spec.gated (Cert.Spec.rows (m ((c : Thread nD τ).loc main_arg0))) (m ((c : Thread nD τ).loc main_arg1)) (m ((c : Thread nD τ).loc main_arg2)) (m ((c : Thread nD τ).loc main_arg3)) (m ((c : Thread nD τ).loc main_arg4)) := by
  have h : V2 m c main_v9 = gatedOf (V1 m) c := (W2_arr m c 5).trans (arr0_5 (V1 m) c)
  rw [h]; unfold gatedOf
  rw [V1_v1 m c, V1_v2 m c, V1_v5 m c, V1_v3 m c, V1_v6 m c]
/-- Region 0 leaves the arrays region 1 reads beside the hidden layer as they were. -/
theorem V2_v4 (c : Dev nD) : V2 m c main_v4 = (m ((c : Thread nD τ).loc main_arg5)) := (W2_of_ne m c main_v4 (by decide)).trans (V1_v4 m c)
theorem V2_v7 (c : Dev nD) : rowVec (V2 m c main_v7) = (m ((c : Thread nD τ).loc main_arg6)) := by
  rw [show V2 m c main_v7 = V1 m c main_v7 from W2_of_ne m c main_v7 (by decide)]; exact V1_v7 m c
theorem V2_v8 (c : Dev nD) : rowVec (V2 m c main_v8) = (m ((c : Thread nD τ).loc main_arg7)) := by
  rw [show V2 m c main_v8 = V1 m c main_v8 from W2_of_ne m c main_v8 (by decide)]; exact V1_v8 m c

/-- Region 1 leaves the whole network's rows in its output array. -/
theorem V3_v10 (c : Dev nD) :
    V3 m c main_v10 = Cert.Spec.out2 (Cert.Spec.rows (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : V3 m c main_v10 = normOf (V2 m) c := (W3_arr m c 4).trans (arr1_4 (V2 m) c)
  rw [h]; unfold normOf Cert.Spec.out2
  rw [V2_v9 m c, V2_v4 m c, V2_v7 m c, V2_v8 m c]

/-- The program's result is the specification of its arguments. -/
theorem result_eq (c : Dev nD) :
    W4 m c (Proc.devRef .tc main_v11) = Cert.Spec.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W3 m c) (Proc.devRef .tc main_v11) = _
  after_results
  funext i
  obtain ⟨a, b, o, rfl⟩ : ∃ (a : Fin 4) (b : Fin 2048) (o : Fin 4096), i = ix3 a b o := ⟨i 0, i 1, i 2, eq_ix3 i⟩
  refine (unrows_cast _ _ a b o).trans ?_
  show V3 m c main_v10 (ix2 (Cert.Spec.rowOf a b) o) = _
  rw [V3_v10 m c]
  rfl

end Cert.KernelIdeal.Frame

end
-- ==== Proof.RefValue.lean ====
/-
  The reference's result, read index by index, is the specification `Cert.Spec.out3` of its arguments.

  The reference is read one layer at a time at an index `(a, b, ·)` of the rank-3 arrays, whose row is
  `r = 2048 * a + b`: the two affine layers, the gated product, the third affine layer `y`, the view of `y` by
  groups of 128 features, the sum of squares of a group, and the quotient by the root of the mean square.
-/
import proofs.«112403_j59167469470253_1_alg».proof.Proof.Gen.ReferenceIdeal.Run
import proofs.«112403_j59167469470253_1_alg».proof.Proof.Gen.ReferenceIdeal.Read
import proofs.«112403_j59167469470253_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.Spec

/-! ## Rows -/

/-- The batch of the row of `(a, b)` is `a`. -/
theorem rowB_rowOf (a : Fin 4) (b : Fin 2048) : rowB (rowOf a b) = a :=
  Fin.ext (by show (2048 * a.val + b.val) / 2048 = a.val; omega)
/-- The position of the row of `(a, b)` is `b`. -/
theorem rowS_rowOf (a : Fin 4) (b : Fin 2048) : rowS (rowOf a b) = b :=
  Fin.ext (by show (2048 * a.val + b.val) % 2048 = b.val; omega)
/-- The input read by rows, at the row of `(a, b)`, is the input at `(a, b, ·)`. -/
theorem rows_rowOf (z : Cube 4 2048 4096) (a : Fin 4) (b : Fin 2048) (d : Fin 4096) :
    rows z (ix2 (rowOf a b) d) = z (ix3 a b d) := by
  show z (ix3 (rowB (rowOf a b)) (rowS (rowOf a b)) d) = _
  rw [rowB_rowOf, rowS_rowOf]

/-- The word of `1.0` is the extended real `1`. -/
theorem ofBits_one_f32 : Ideal.ofBits .f32 0x3F800000#32 = 1 := by
  simp [Ideal.ofBits, Ideal.ieee, -EReal.coe_mul]; norm_num

/-! ## The two affine layers on the input -/

section Layer1
variable (x0 : (⟨S4x2048x4096, .f32⟩ : BufTy).Contents (Elt Ideal)) (W : (⟨S4096x8192, .f32⟩ : BufTy).Contents (Elt Ideal))
  (bias : (⟨S8192, .f32⟩ : BufTy).Contents (Elt Ideal))

theorem lidx_v0 (a : Fin 4) (b : Fin 2048) (n : Fin 8192) (k : Fin 4096) :
    lidx_main_v0 (ix3 a b n) k = ix3 a b k :=
  funext fun d => by match d with | ⟨0, _⟩ => rfl | ⟨1, _⟩ => rfl | ⟨2, _⟩ => rfl
theorem ridx_v0 (a : Fin 4) (b : Fin 2048) (n : Fin 8192) (k : Fin 4096) :
    ridx_main_v0 (ix3 a b n) k = ix2 k n :=
  funext fun d => by match d with | ⟨0, _⟩ => rfl | ⟨1, _⟩ => rfl
theorem idx_v1v2 (a : Fin 4) (b : Fin 2048) (n : Fin 8192) :
    idx_main_v1 (idx_main_v2 (ix3 a b n)) = ix1 n :=
  funext fun d => by match d with | ⟨0, _⟩ => rfl

/-- The gate layer at `(a, b, n)`. -/
theorem gate_at (a : Fin 4) (b : Fin 2048) (n : Fin 8192) :
    val_main_v3 (F := Ideal) x0 W bias (ix3 a b n) = lin (rows x0) W bias (ix2 (rowOf a b) n) := by
  rw [val_main_v3_apply, val_main_v0_apply, val_main_v2_apply, val_main_v1_apply, idx_v1v2]
  simp only [lidx_v0, ridx_v0, Ideal.addf_def]
  show _ = (∑ d : Fin 4096, rows x0 (ix2 (rowOf a b) d) * W (ix2 d n)) + bias (ix1 n)
  simp only [rows_rowOf]

theorem lidx_v4 (a : Fin 4) (b : Fin 2048) (n : Fin 8192) (k : Fin 4096) :
    lidx_main_v4 (ix3 a b n) k = ix3 a b k :=
  funext fun d => by match d with | ⟨0, _⟩ => rfl | ⟨1, _⟩ => rfl | ⟨2, _⟩ => rfl
theorem ridx_v4 (a : Fin 4) (b : Fin 2048) (n : Fin 8192) (k : Fin 4096) :
    ridx_main_v4 (ix3 a b n) k = ix2 k n :=
  funext fun d => by match d with | ⟨0, _⟩ => rfl | ⟨1, _⟩ => rfl
theorem idx_v5v6 (a : Fin 4) (b : Fin 2048) (n : Fin 8192) :
    idx_main_v5 (idx_main_v6 (ix3 a b n)) = ix1 n :=
  funext fun d => by match d with | ⟨0, _⟩ => rfl

/-- The content layer at `(a, b, n)`. -/
theorem content_at (a : Fin 4) (b : Fin 2048) (n : Fin 8192) :
    val_main_v7 (F := Ideal) x0 W bias (ix3 a b n) = lin (rows x0) W bias (ix2 (rowOf a b) n) := by
  rw [val_main_v7_apply, val_main_v4_apply, val_main_v6_apply, val_main_v5_apply, idx_v5v6]
  simp only [lidx_v4, ridx_v4, Ideal.addf_def]
  show _ = (∑ d : Fin 4096, rows x0 (ix2 (rowOf a b) d) * W (ix2 d n)) + bias (ix1 n)
  simp only [rows_rowOf]

end Layer1

/-! ## The gated layer -/

section Gated
variable (x0 : (⟨S4x2048x4096, .f32⟩ : BufTy).Contents (Elt Ideal)) (x1 : (⟨S4096x8192, .f32⟩ : BufTy).Contents (Elt Ideal))
  (x2 : (⟨S8192, .f32⟩ : BufTy).Contents (Elt Ideal)) (x3 : (⟨S4096x8192, .f32⟩ : BufTy).Contents (Elt Ideal))
  (x4 : (⟨S8192, .f32⟩ : BufTy).Contents (Elt Ideal))

/-- The reference's `1 / (1 + exp (-g))` at `(a, b, n)` is the logistic function of the gate layer there. -/
theorem sigmoid_at (a : Fin 4) (b : Fin 2048) (n : Fin 8192) :
    val_main_v13 (F := Ideal) x0 x1 x2 (ix3 a b n) = Ideal.logistic (lin (rows x0) x1 x2 (ix2 (rowOf a b) n)) := by
  rw [val_main_v13_apply, val_main_v12_apply, val_main_cst_0_apply, val_main_v11_apply, val_main_v10_apply,
    val_main_cst_apply, val_main_v9_apply, val_main_v8_apply, gate_at]
  simp only [Ideal.hostDivf_def, Ideal.addf_def, Ideal.hostUnary_exp_def, Ideal.hostNegf_def, Ideal.negf_def,
    Ideal.ofBits_def, ofBits_one_f32]
  rfl

/-- The gated layer at `(a, b, n)`: content times the logistic of the gate. -/
theorem gated_at (a : Fin 4) (b : Fin 2048) (n : Fin 8192) :
    val_main_v14 (F := Ideal) x0 x1 x2 x3 x4 (ix3 a b n) = gated (rows x0) x1 x2 x3 x4 (ix2 (rowOf a b) n) := by
  rw [val_main_v14_apply, content_at, sigmoid_at]
  rfl

end Gated

/-! ## The third affine layer -/

section Layer3
variable (x0 : (⟨S4x2048x4096, .f32⟩ : BufTy).Contents (Elt Ideal)) (x1 : (⟨S4096x8192, .f32⟩ : BufTy).Contents (Elt Ideal))
  (x2 : (⟨S8192, .f32⟩ : BufTy).Contents (Elt Ideal)) (x3 : (⟨S4096x8192, .f32⟩ : BufTy).Contents (Elt Ideal))
  (x4 : (⟨S8192, .f32⟩ : BufTy).Contents (Elt Ideal)) (x5 : (⟨S8192x4096, .f32⟩ : BufTy).Contents (Elt Ideal))
  (x6 : (⟨S4096, .f32⟩ : BufTy).Contents (Elt Ideal))

/-- The third layer `y` of the specification, on rows. -/
abbrev ySpec : Mat 8192 4096 := lin (gated (rows x0) x1 x2 x3 x4) x5 x6

theorem lidx_v15 (a : Fin 4) (b : Fin 2048) (o : Fin 4096) (k : Fin 8192) :
    lidx_main_v15 (ix3 a b o) k = ix3 a b k :=
  funext fun d => by match d with | ⟨0, _⟩ => rfl | ⟨1, _⟩ => rfl | ⟨2, _⟩ => rfl
theorem ridx_v15 (a : Fin 4) (b : Fin 2048) (o : Fin 4096) (k : Fin 8192) :
    ridx_main_v15 (ix3 a b o) k = ix2 k o :=
  funext fun d => by match d with | ⟨0, _⟩ => rfl | ⟨1, _⟩ => rfl
theorem idx_v16v17 (a : Fin 4) (b : Fin 2048) (o : Fin 4096) :
    idx_main_v16 (idx_main_v17 (ix3 a b o)) = ix1 o :=
  funext fun d => by match d with | ⟨0, _⟩ => rfl

/-- The third layer at `(a, b, o)`. -/
theorem y_at (a : Fin 4) (b : Fin 2048) (o : Fin 4096) :
    val_main_v18 (F := Ideal) x0 x1 x2 x3 x4 x5 x6 (ix3 a b o) = ySpec x0 x1 x2 x3 x4 x5 x6 (ix2 (rowOf a b) o) := by
  rw [val_main_v18_apply, val_main_v15_apply, val_main_v17_apply, val_main_v16_apply, idx_v16v17]
  simp only [lidx_v15, ridx_v15, Ideal.addf_def, gated_at]
  rfl

end Layer3

/-! ## The view by groups of 128 features, and the normalisation -/

/-- Feature `l` of group `g`. -/
def grp (g : Fin 32) (l : Fin 128) : Fin 4096 := ⟨128 * g.val + l.val, by omega⟩

/-- A feature is the lane `o % 128` of the group `o / 128`. -/
theorem grp_div_mod (o : Fin 4096) : grp ⟨o.val / 128, by omega⟩ ⟨o.val % 128, by omega⟩ = o :=
  Fin.ext (by show 128 * (o.val / 128) + o.val % 128 = o.val; omega)
/-- The features of the group that holds `o` are the specification's `grpCol o`. -/
theorem grp_div (o : Fin 4096) (l : Fin 128) : grp ⟨o.val / 128, by omega⟩ l = grpCol o l := rfl

section Norm
variable (x0 : (⟨S4x2048x4096, .f32⟩ : BufTy).Contents (Elt Ideal)) (x1 : (⟨S4096x8192, .f32⟩ : BufTy).Contents (Elt Ideal))
  (x2 : (⟨S8192, .f32⟩ : BufTy).Contents (Elt Ideal)) (x3 : (⟨S4096x8192, .f32⟩ : BufTy).Contents (Elt Ideal))
  (x4 : (⟨S8192, .f32⟩ : BufTy).Contents (Elt Ideal)) (x5 : (⟨S8192x4096, .f32⟩ : BufTy).Contents (Elt Ideal))
  (x6 x7 : (⟨S4096, .f32⟩ : BufTy).Contents (Elt Ideal))

/-- Splitting the features into 32 groups of 128: entry `(a, b, g, l)` of the rank-4 view is entry
    `(a, b, 128 * g + l)` of the rank-3 array. -/
theorem idx_v19 (a : Fin 4) (b : Fin 2048) (g : Fin 32) (l : Fin 128) :
    idx_main_v19 (ix4 a b g l) = ix3 a b (grp g l) := by
  have ha := a.isLt; have hb := b.isLt; have hg := g.isLt; have hl := l.isLt
  funext d
  match d with
  | ⟨0, _⟩ =>
    exact Fin.ext (by show (((a.val * 2048 + b.val) * 32 + g.val) * 128 + l.val) / 8388608 = a.val; omega)
  | ⟨1, _⟩ =>
    exact Fin.ext (by show (((a.val * 2048 + b.val) * 32 + g.val) * 128 + l.val) / 4096 % 2048 = b.val; omega)
  | ⟨2, _⟩ =>
    exact Fin.ext (by show (((a.val * 2048 + b.val) * 32 + g.val) * 128 + l.val) % 4096 = 128 * g.val + l.val; omega)

/-- The grouped view of `y` at `(a, b, g, l)`. -/
theorem yg_at (a : Fin 4) (b : Fin 2048) (g : Fin 32) (l : Fin 128) :
    val_main_v19 (F := Ideal) x0 x1 x2 x3 x4 x5 x6 (ix4 a b g l)
      = ySpec x0 x1 x2 x3 x4 x5 x6 (ix2 (rowOf a b) (grp g l)) := by
  rw [val_main_v19_apply, idx_v19, y_at]

theorem idx_v21 (a : Fin 4) (b : Fin 2048) (g : Fin 32) (k : Fin 128) :
    idx_main_v21 (ix3 a b g) k = ix4 a b g k :=
  funext fun d => by match d with | ⟨0, _⟩ => rfl | ⟨1, _⟩ => rfl | ⟨2, _⟩ => rfl | ⟨3, _⟩ => rfl

/-- The sum of the squares of group `g` in row `(a, b)`. -/
theorem sumSq_at (a : Fin 4) (b : Fin 2048) (g : Fin 32) :
    val_main_v21 (F := Ideal) x0 x1 x2 x3 x4 x5 x6 (ix3 a b g)
      = ∑ l : Fin 128, ySpec x0 x1 x2 x3 x4 x5 x6 (ix2 (rowOf a b) (grp g l))
          * ySpec x0 x1 x2 x3 x4 x5 x6 (ix2 (rowOf a b) (grp g l)) := by
  rw [val_main_v21_apply, val_main_cst_1_apply, Ideal.ofBits_def, Ideal.ofBits_zero_f32, zero_add]
  refine Finset.sum_congr rfl fun l _ => ?_
  rw [idx_v21, val_main_v20_apply, yg_at, Ideal.mulf_def]

theorem idx_v22 (a : Fin 4) (b : Fin 2048) (g : Fin 32) (z : Fin 1) :
    idx_main_v22 (ix4 a b g z) = ix3 a b g :=
  funext fun d => by match d with | ⟨0, _⟩ => rfl | ⟨1, _⟩ => rfl | ⟨2, _⟩ => rfl

/-- The root of the mean square (plus the constant) of group `g` in row `(a, b)`. -/
theorem rms_at (a : Fin 4) (b : Fin 2048) (g : Fin 32) (z : Fin 1) :
    val_main_v27 (F := Ideal) x0 x1 x2 x3 x4 x5 x6 (ix4 a b g z)
      = Ideal.sqrt (Ideal.div (∑ l : Fin 128, ySpec x0 x1 x2 x3 x4 x5 x6 (ix2 (rowOf a b) (grp g l))
          * ySpec x0 x1 x2 x3 x4 x5 x6 (ix2 (rowOf a b) (grp g l))) c128 + ceps) := by
  rw [val_main_v27_apply, val_main_v26_apply, val_main_v24_apply, val_main_v22_apply, idx_v22, sumSq_at,
    val_main_v23_apply, val_main_cst_2_apply, val_main_v25_apply, val_main_cst_3_apply]
  simp only [Ideal.hostUnary_sqrt_def, Ideal.addf_def, Ideal.hostDivf_def, Ideal.ofBits_def]

theorem idx_v28 (a : Fin 4) (b : Fin 2048) (g : Fin 32) (l : Fin 128) :
    idx_main_v28 (ix4 a b g l) = ix4 a b g (0 : Fin 1) :=
  funext fun d => by match d with | ⟨0, _⟩ => rfl | ⟨1, _⟩ => rfl | ⟨2, _⟩ => rfl | ⟨3, _⟩ => rfl

/-- Joining the groups again: entry `(a, b, o)` of the rank-3 array is entry `(a, b, o / 128, o % 128)` of the
    rank-4 view. -/
theorem idx_v30 (a : Fin 4) (b : Fin 2048) (o : Fin 4096) :
    idx_main_v30 (ix3 a b o) = ix4 a b (⟨o.val / 128, by omega⟩ : Fin 32) (⟨o.val % 128, by omega⟩ : Fin 128) := by
  have ha := a.isLt; have hb := b.isLt; have ho := o.isLt
  funext d
  match d with
  | ⟨0, _⟩ => exact Fin.ext (by show ((a.val * 2048 + b.val) * 4096 + o.val) / 8388608 = a.val; omega)
  | ⟨1, _⟩ => exact Fin.ext (by show ((a.val * 2048 + b.val) * 4096 + o.val) / 4096 % 2048 = b.val; omega)
  | ⟨2, _⟩ => exact Fin.ext (by show ((a.val * 2048 + b.val) * 4096 + o.val) / 128 % 32 = o.val / 128; omega)
  | ⟨3, _⟩ => exact Fin.ext (by show ((a.val * 2048 + b.val) * 4096 + o.val) % 128 = o.val % 128; omega)

theorem idx_v31v32 (a : Fin 4) (b : Fin 2048) (o : Fin 4096) :
    idx_main_v31 (idx_main_v32 (ix3 a b o)) = ix1 o :=
  funext fun d => by match d with | ⟨0, _⟩ => rfl

/-- The reference's result at `(a, b, o)`. -/
theorem ref_at (a : Fin 4) (b : Fin 2048) (o : Fin 4096) :
    val_main_v33 (F := Ideal) x0 x1 x2 x3 x4 x5 x6 x7 (ix3 a b o)
      = out2 (rows x0) x1 x2 x3 x4 x5 x6 x7 (ix2 (rowOf a b) o) := by
  rw [val_main_v33_apply, val_main_v30_apply, idx_v30, val_main_v29_apply, yg_at, val_main_v28_apply, idx_v28, rms_at,
    val_main_v32_apply, val_main_v31_apply, idx_v31v32, grp_div_mod]
  simp only [grp_div, Ideal.mulf_def, Ideal.hostDivf_def]
  rfl

end Norm

/-- THE REFERENCE IS THE SPECIFICATION: its result, as a function of its eight arguments, is `Cert.Spec.out3`. -/
theorem ref_eq_spec
    (x0 : (⟨S4x2048x4096, .f32⟩ : BufTy).Contents (Elt Ideal)) (x1 : (⟨S4096x8192, .f32⟩ : BufTy).Contents (Elt Ideal))
    (x2 : (⟨S8192, .f32⟩ : BufTy).Contents (Elt Ideal)) (x3 : (⟨S4096x8192, .f32⟩ : BufTy).Contents (Elt Ideal))
    (x4 : (⟨S8192, .f32⟩ : BufTy).Contents (Elt Ideal)) (x5 : (⟨S8192x4096, .f32⟩ : BufTy).Contents (Elt Ideal))
    (x6 x7 : (⟨S4096, .f32⟩ : BufTy).Contents (Elt Ideal)) :
    Cert.ReferenceIdeal.Read.val_main_v33 (F := Ideal) x0 x1 x2 x3 x4 x5 x6 x7 = Cert.Spec.out3 x0 x1 x2 x3 x4 x5 x6 x7 := by
  funext i
  obtain ⟨a, b, o, rfl⟩ : ∃ (a : Fin 4) (b : Fin 2048) (o : Fin 4096), i = ix3 a b o := ⟨i 0, i 1, i 2, eq_ix3 i⟩
  rw [ref_at]
  rfl

end Cert.ReferenceIdeal.RefValue

end
-- ==== Proof.lean ====
/-
  A two-stage gated network with a grouped normalisation, as a Pallas kernel of two calls, against its jnp
  reference, over the extended reals.

  Both programs compute, for every row r (a flattened (batch, position) pair) and feature o,
      y r o / sqrt (mean of y r · ^ 2 over o's group of 128 features + eps) * gamma o,
  where y = gated · W3 + b3 and gated = (z · W2 + b2) * logistic (z · W1 + b1).  The kernel's first call tiles the
  hidden layer into 512 x 512 blocks; its second accumulates y over sixteen blocks of 512 hidden features in a
  scratch buffer and normalises at the last one.  The two sides differ only in the grouping of a finite sum in a
  commutative monoid and in the spelling of the logistic function, which at the ideal instance is by definition
  1 / (1 + exp (-x)); no law that needs finiteness is used, and the precondition is never opened.

  The frames of the two kernel programs are one text, generic in the float instance: each region's body is run
  symbolically at a generic grid point, the second region under an invariant that carries the accumulator from
  point to point, and the launch over the four segments of @main names every buffer's final contents.  The
  reference's frame is its run with the result dropped.
-/
import proofs.«112403_j59167469470253_1_alg».proof.Defs
import proofs.«112403_j59167469470253_1_alg».proof.Proof.Gen.Kernel
import proofs.«112403_j59167469470253_1_alg».proof.Proof.Gen.KernelIdeal
import proofs.«112403_j59167469470253_1_alg».proof.Proof.Gen.ReferenceIdeal
import proofs.«112403_j59167469470253_1_alg».proof.Proof.Gen.Pre_finite_inputs
import proofs.«112403_j59167469470253_1_alg».proof.Proof.Gen.ReferenceIdeal.Run
import proofs.«112403_j59167469470253_1_alg».proof.Proof.Gen.ReferenceIdeal.Read
import proofs.«112403_j59167469470253_1_alg».proof.Proof.KernelRun
import proofs.«112403_j59167469470253_1_alg».proof.Proof.Run
import proofs.«112403_j59167469470253_1_alg».proof.Proof.Glue
import proofs.«112403_j59167469470253_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frame.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel program ends with its result at the specification of its arguments and the arguments unchanged;
    the reference with its result at the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Frame.W4 (F := Ideal) m c (Proc.devRef .tc Cert.KernelIdeal.main_v11), ?_, ?_⟩
  · refine (θ_run Cert.KernelIdeal.defs _ _).mono (fun _ h c => ?_) (Cert.KernelIdeal.Frame.run_all (F := Ideal) m ρ)
    exact ⟨h c _ (Cert.KernelIdeal.Frame.mem_uc Cert.KernelIdeal.main_v11 (by decide)),
      (h c _ (Cert.KernelIdeal.Frame.mem_uc Cert.KernelIdeal.main_arg0 (by decide))).trans (Cert.KernelIdeal.Frame.W4_main_arg0 m c),
      (h c _ (Cert.KernelIdeal.Frame.mem_uc Cert.KernelIdeal.main_arg1 (by decide))).trans (Cert.KernelIdeal.Frame.W4_main_arg1 m c),
      (h c _ (Cert.KernelIdeal.Frame.mem_uc Cert.KernelIdeal.main_arg2 (by decide))).trans (Cert.KernelIdeal.Frame.W4_main_arg2 m c),
      (h c _ (Cert.KernelIdeal.Frame.mem_uc Cert.KernelIdeal.main_arg3 (by decide))).trans (Cert.KernelIdeal.Frame.W4_main_arg3 m c),
      (h c _ (Cert.KernelIdeal.Frame.mem_uc Cert.KernelIdeal.main_arg4 (by decide))).trans (Cert.KernelIdeal.Frame.W4_main_arg4 m c),
      (h c _ (Cert.KernelIdeal.Frame.mem_uc Cert.KernelIdeal.main_arg5 (by decide))).trans (Cert.KernelIdeal.Frame.W4_main_arg5 m c),
      (h c _ (Cert.KernelIdeal.Frame.mem_uc Cert.KernelIdeal.main_arg6 (by decide))).trans (Cert.KernelIdeal.Frame.W4_main_arg6 m c),
      (h c _ (Cert.KernelIdeal.Frame.mem_uc Cert.KernelIdeal.main_arg7 (by decide))).trans (Cert.KernelIdeal.Frame.W4_main_arg7 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.ref_eq_spec,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.KernelIdeal.Frame.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
